-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S4194304x16 : Shape := ⟨2, ![4194304, 16]⟩
abbrev S_ : Shape := ⟨0, ![]⟩

class Facts : Prop where
  bcast_S_S4194304x16 : S_.BroadcastsInDim S4194304x16 (![] : Fin 0 → Fin S4194304x16.rank)
  reducesTo_S4194304x16_S_d0_1 : S4194304x16.ReducesTo [0, 1] S_
  h_S_ : 0 < S_.numel

variable [Facts]

def fn {F : FTy → Type} [FloatOps F] (main_arg0 : IVec S4194304 32) (main_arg1 : IVec S4194304 32) (main_arg2 : FVec F S4194304x16 .f32) : IVec S_ 1 :=
  let main_v0 : FVec F S4194304x16 .f32 := Host.absf main_arg2
  let main_cst : FVec F S_ .f32 := constant S_ .f32 0x7F800000#32
  let main_v1 : FVec F S4194304x16 .f32 := broadcastInDim S4194304x16 ![] bcast_S_S4194304x16 main_cst
  let main_v2 : IVec S4194304x16 1 := cmpf .olt main_v0 main_v1
  let main_c : IVec S_ 1 := constantI S_ 1 1#1
  let main_v3 : IVec S_ 1 := (fun x v => Host.reduce IntOp.andi x v reducesTo_S4194304x16_S_d0_1 h_S_) main_v2 main_c
  main_v3
-- ==== Kernel.lean ====
abbrev S4194304 : Shape := ⟨1, ![4194304]⟩
abbrev S4194304x16 : Shape := ⟨2, ![4194304, 16]⟩
abbrev S_ : Shape := ⟨0, ![]⟩
abbrev S2x2097152x1 : Shape := ⟨3, ![2, 2097152, 1]⟩
abbrev S2x2097152x16 : Shape := ⟨3, ![2, 2097152, 16]⟩
abbrev S8192x256 : Shape := ⟨2, ![8192, 256]⟩
abbrev S2x16x512 : Shape := ⟨3, ![2, 16, 512]⟩
abbrev S1x8192x1 : Shape := ⟨3, ![1, 8192, 1]⟩
abbrev S1x8192x16 : Shape := ⟨3, ![1, 8192, 16]⟩
abbrev S1x16x512 : Shape := ⟨3, ![1, 16, 512]⟩
abbrev S16x512 : Shape := ⟨2, ![16, 512]⟩
abbrev S8192x1 : Shape := ⟨2, ![8192, 1]⟩
abbrev S8192x16 : Shape := ⟨2, ![8192, 16]⟩
abbrev S16x256 : Shape := ⟨2, ![16, 256]⟩
abbrev S16x16x32 : Shape := ⟨3, ![16, 16, 32]⟩
abbrev S16x32x16 : Shape := ⟨3, ![16, 32, 16]⟩
abbrev S16x16 : Shape := ⟨2, ![16, 16]⟩
abbrev S16x1x16 : Shape := ⟨3, ![16, 1, 16]⟩

abbrev nBuf : Space → Nat
  | .hbm => 23
  | .vmem => 8
  | .smem => 0
  | _ => 0

abbrev bufTy : (tb : Table) → Fin (tcTables nBuf tb) → BufTy
  | .hbm, ⟨0, _⟩ => ⟨S4194304, .i32⟩
  | .hbm, ⟨1, _⟩ => ⟨S4194304, .i32⟩
  | .hbm, ⟨2, _⟩ => ⟨S4194304x16, .f32⟩
  | .hbm, ⟨3, _⟩ => ⟨S_, .i32⟩
  | .hbm, ⟨4, _⟩ => ⟨S4194304, .i32⟩
  | .hbm, ⟨5, _⟩ => ⟨S4194304, .i32⟩
  | .hbm, ⟨6, _⟩ => ⟨S4194304, .i32⟩
  | .hbm, ⟨7, _⟩ => ⟨S2x2097152x1, .i32⟩
  | .hbm, ⟨8, _⟩ => ⟨S2x2097152x16, .f32⟩
  | .hbm, ⟨9, _⟩ => ⟨S8192x256, .i32⟩
  | .hbm, ⟨10, _⟩ => ⟨S2x16x512, .f32⟩
  | .hbm, ⟨11, _⟩ => ⟨S_, .f32⟩
  | .hbm, ⟨12, _⟩ => ⟨S16x512, .f32⟩
  | .hbm, ⟨13, _⟩ => ⟨S16x16x32, .f32⟩
  | .hbm, ⟨14, _⟩ => ⟨S16x32x16, .f32⟩
  | .hbm, ⟨15, _⟩ => ⟨S_, .f32⟩
  | .hbm, ⟨16, _⟩ => ⟨S16x32x16, .f32⟩
  | .hbm, ⟨17, _⟩ => ⟨S16x32x16, .f32⟩
  | .hbm, ⟨18, _⟩ => ⟨S_, .f32⟩
  | .hbm, ⟨19, _⟩ => ⟨S16x16, .f32⟩
  | .hbm, ⟨20, _⟩ => ⟨S16x1x16, .f32⟩
  | .hbm, ⟨21, _⟩ => ⟨S16x32x16, .f32⟩
  | .hbm, ⟨22, _⟩ => ⟨S16x32x16, .f32⟩
  | .local _ .vmem, ⟨0, _⟩ => ⟨S1x8192x1, .i32⟩
  | .local _ .vmem, ⟨1, _⟩ => ⟨S1x8192x1, .i32⟩
  | .local _ .vmem, ⟨2, _⟩ => ⟨S1x8192x16, .f32⟩
  | .local _ .vmem, ⟨3, _⟩ => ⟨S1x8192x16, .f32⟩
  | .local _ .vmem, ⟨4, _⟩ => ⟨S8192x256, .i32⟩
  | .local _ .vmem, ⟨5, _⟩ => ⟨S1x16x512, .f32⟩
  | .local _ .vmem, ⟨6, _⟩ => ⟨S1x16x512, .f32⟩
  | .local _ .vmem, ⟨7, _⟩ => ⟨S16x512, .f32⟩
  | _, _ => ⟨S4194304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v36 : BitVec 1 := Scalar.cmpi .eq arg1 c255_i32
  let v37 : BitVec 32 := Scalar.extui v36
  let c0_i32_17 : BitVec 32 := 0#32
  let v38 : BitVec 1 := Scalar.cmpi .ne v37 c0_i32_17
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4194304 : S_.BroadcastsInDim S4194304 (![] : Fin 0 → Fin S4194304.rank)
  shapeCasts_S4194304_S2x2097152x1 : S4194304.ShapeCasts S2x2097152x1
  shapeCasts_S4194304x16_S2x2097152x16 : S4194304x16.ShapeCasts S2x2097152x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x8192x1_S1x8192x1_0_0_0 : ∀ a, (![0, 0, 0] : Fin 3 → Nat) a + S1x8192x1.size a ≤ S1x8192x1.size a
  h_S1x8192x1 : 0 < S1x8192x1.numel
  shapeCasts_S1x8192x1_S8192x1 : S1x8192x1.ShapeCasts S8192x1
  inb_S1x8192x16_S1x8192x16_0_0_0 : ∀ a, (![0, 0, 0] : Fin 3 → Nat) a + S1x8192x16.size a ≤ S1x8192x16.size a
  h_S1x8192x16 : 0 < S1x8192x16.numel
  shapeCasts_S1x8192x16_S8192x16 : S1x8192x16.ShapeCasts S8192x16
  bitsLt_bf16_f32 : FTy.bits .bf16 < FTy.bits .f32
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  broadcasts_S8192x1_S8192x256 : S8192x1.Broadcasts S8192x256
  natLt_1_32 : 1 < 32
  inb_S16x512_S16x256_0_0 : ∀ a, (![0, 0] : Fin 2 → Nat) a + S16x256.size a ≤ S16x512.size a
  h_S16x256 : 0 < S16x256.numel
  shapeCasts_S16x256_S16x256 : S16x256.ShapeCasts S16x256
  inb_S16x512_S16x256_0_256 : ∀ a, (![0, 256] : Fin 2 → Nat) a + S16x256.size a ≤ S16x512.size a
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S1x16x512 : S16x512.ShapeCasts S1x16x512
  reducesTo_S2x16x512_S16x512_d0 : S2x16x512.ReducesTo [0] S16x512
  h_S_ : 0 < S_.numel
  shapeCasts_S16x512_S16x16x32 : S16x512.ShapeCasts S16x16x32
  transposes_S16x16x32_S16x32x16_1_2_0 : S16x16x32.Transposes [1, 2, 0] S16x32x16
  bcast_S_S16x32x16 : S_.BroadcastsInDim S16x32x16 (![] : Fin 0 → Fin S16x32x16.rank)
  reducesTo_S16x32x16_S16x16_d1 : S16x32x16.ReducesTo [1] S16x16
  bcast_S16x16_S16x1x16_0_2 : S16x16.BroadcastsInDim S16x1x16 (![0, 2] : Fin 2 → Fin S16x1x16.rank)
  bcast_S16x1x16_S16x32x16_0_1_2 : S16x1x16.BroadcastsInDim S16x32x16 (![0, 1, 2] : Fin 3 → Fin S16x32x16.rank)
  dot_S8192x16_S8192x256_S16x256_0_0_1_1_n_n_wf : DotDims.WF S8192x16 S8192x256 S16x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x1.size a ≤ S2x2097152x1.size a
  hwx0_0 : ∀ i : grid0.Coords, EltTy.bits .i32 = 32 ∨ (Rect.block (s := S2x2097152x1) S1x8192x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x16.size a ≤ S2x2097152x16.size a
  hwx0_1 : ∀ i : grid0.Coords, EltTy.bits .f32 = 32 ∨ (Rect.block (s := S2x2097152x16) S1x8192x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .i32 = 32 ∨ (Rect.block (s := S8192x256) S8192x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512.size a ≤ S2x16x512.size a
  hwx0_3 : ∀ i : grid0.Coords, EltTy.bits .f32 = 32 ∨ (Rect.block (s := S2x16x512) S1x16x512.size (cc0_transform_3 i) (hinb0_3 i)).WholeWords (EltTy.packing .f32)

variable [Facts₀]

def dot_S8192x16_S8192x256_S16x256_0_0_1_1_n_n : DotDims S8192x16 S8192x256 S16x256 where
  lhsContracting := [0]
  rhsContracting := [0]
  lhsNonContracting := [1]
  rhsNonContracting := [1]
  lhsBatch := []
  rhsBatch := []
  wf := dot_S8192x16_S8192x256_S16x256_0_0_1_1_n_n_wf

abbrev win0_0 : Pipeline.Window sig grid0 :=
  Pipeline.Window.ofSpec (Memref.whole main_v3) S1x8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x8192x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4194304 : Shape := ⟨1, ![4194304]⟩
abbrev S4194304x16 : Shape := ⟨2, ![4194304, 16]⟩
abbrev S_ : Shape := ⟨0, ![]⟩
abbrev S512x16 : Shape := ⟨2, ![512, 16]⟩
abbrev S4194304x1 : Shape := ⟨2, ![4194304, 1]⟩
abbrev S16x32x16 : Shape := ⟨3, ![16, 32, 16]⟩
abbrev S16x16 : Shape := ⟨2, ![16, 16]⟩
abbrev S16x1x16 : Shape := ⟨3, ![16, 1, 16]⟩

abbrev nBuf : Space → Nat
  | .hbm => 20
  | .vmem => 0
  | .smem => 0
  | _ => 0

abbrev bufTy : (tb : Table) → Fin (tcTables nBuf tb) → BufTy
  | .hbm, ⟨0, _⟩ => ⟨S4194304, .i32⟩
  | .hbm, ⟨1, _⟩ => ⟨S4194304, .i32⟩
  | .hbm, ⟨2, _⟩ => ⟨S4194304x16, .f32⟩
  | .hbm, ⟨3, _⟩ => ⟨S_, .i32⟩
  | .hbm, ⟨4, _⟩ => ⟨S4194304, .i32⟩
  | .hbm, ⟨5, _⟩ => ⟨S4194304, .i32⟩
  | .hbm, ⟨6, _⟩ => ⟨S4194304, .i32⟩
  | .hbm, ⟨7, _⟩ => ⟨S_, .f32⟩
  | .hbm, ⟨8, _⟩ => ⟨S512x16, .f32⟩
  | .hbm, ⟨9, _⟩ => ⟨S4194304x1, .i32⟩
  | .hbm, ⟨10, _⟩ => ⟨S512x16, .f32⟩
  | .hbm, ⟨11, _⟩ => ⟨S16x32x16, .f32⟩
  | .hbm, ⟨12, _⟩ => ⟨S_, .f32⟩
  | .hbm, ⟨13, _⟩ => ⟨S16x32x16, .f32⟩
  | .hbm, ⟨14, _⟩ => ⟨S16x32x16, .f32⟩
  | .hbm, ⟨15, _⟩ => ⟨S_, .f32⟩
  | .hbm, ⟨16, _⟩ => ⟨S16x16, .f32⟩
  | .hbm, ⟨17, _⟩ => ⟨S16x1x16, .f32⟩
  | .hbm, ⟨18, _⟩ => ⟨S16x32x16, .f32⟩
  | .hbm, ⟨19, _⟩ => ⟨S16x32x16, .f32⟩
  | _, _ => ⟨S4194304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  bcast_S_S512x16 : S_.BroadcastsInDim S512x16 (![] : Fin 0 → Fin S512x16.rank)
  bcast_S4194304_S4194304x1_0 : S4194304.BroadcastsInDim S4194304x1 (![0] : Fin 1 → Fin S4194304x1.rank)
  shapeCasts_S512x16_S16x32x16 : S512x16.ShapeCasts S16x32x16
  bcast_S_S16x32x16 : S_.BroadcastsInDim S16x32x16 (![] : Fin 0 → Fin S16x32x16.rank)
  reducesTo_S16x32x16_S16x16_d1 : S16x32x16.ReducesTo [1] S16x16
  h_S_ : 0 < S_.numel
  bcast_S16x16_S16x1x16_0_2 : S16x16.BroadcastsInDim S16x1x16 (![0, 2] : Fin 2 → Fin S16x1x16.rank)
  bcast_S16x1x16_S16x32x16_0_1_2 : S16x1x16.BroadcastsInDim S16x32x16 (![0, 1, 2] : Fin 3 → Fin S16x32x16.rank)
  scatter_S512x16_S4194304x1_S4194304x16_1_0_0_1_wf : ScatterDims.WF S512x16 S4194304x1 S4194304x16 [1] [0] [0] 1

variable [Facts₀]

def scatter_S512x16_S4194304x1_S4194304x16_1_0_0_1 : ScatterDims S512x16 S4194304x1 S4194304x16 where
  updateWindowDims := [1]
  insertedWindowDims := [0]
  scatterDimsToOperandDims := [0]
  indexVectorDim := 1
  wf := scatter_S512x16_S4194304x1_S4194304x16_1_0_0_1_wf

class Facts : Prop extends Facts₀ where

variable [Facts]
-- ==== Proof.Pieces.lean ====
/-
  What one grid point's body leaves in the [16,512] accumulator and in the output block, as values.
  The body adds to each 256-bin half of the accumulator that half's one-hot contraction of the point's tile
  (`step`); the first point of a core starts from the zero block instead of the carried contents; the last
  point of a core also copies the accumulator, re-laid as [1,16,512], into the output block.
-/
import proofs.«409385_j34368328303367_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator's low half: bins 0 … 255 of every channel. -/
abbrev R0 : Rect S16x512 := Rect.unit ![0, 0] S16x256.size inb_S16x512_S16x256_0_0
/-- Its high half: bins 256 … 511. -/
abbrev R1 : Rect S16x512 := Rect.unit ![0, 256] S16x256.size inb_S16x512_S16x256_0_256
/-- The whole accumulator. -/
abbrev RW : Rect S16x512 := Rect.unit ![0, 0] S16x512.size inb_S16x512_S16x512_0_0

/-- Every accumulator entry is in one half or the other, -/
theorem mem_halves (y : S16x512.Idx) : y ∈ R0.set ∨ y ∈ R1.set := by
  rw [Rect.mem_set_unit, Rect.mem_set_unit]
  have h0 : (y 0).val < 16 := (y 0).isLt
  have h1 : (y 1).val < 512 := (y 1).isLt
  by_cases h : (y 1).val < 256
  · left; intro a
    match a with
    | ⟨0, _⟩ => exact ⟨Nat.zero_le _, by show (y 0).val < 0 + 16; omega⟩
    | ⟨1, _⟩ => exact ⟨Nat.zero_le _, by show (y 1).val < 0 + 256; omega⟩
  · right; intro a
    match a with
    | ⟨0, _⟩ => exact ⟨Nat.zero_le _, by show (y 0).val < 0 + 16; omega⟩
    | ⟨1, _⟩ => exact ⟨by show 256 ≤ (y 1).val; omega, by show (y 1).val < 256 + 256; omega⟩

/-- and the halves do not meet. -/
theorem halves_disjoint : Disjoint R0.set R1.set :=
  Rect.unit_disjoint 1 (Or.inl (by decide))

/-- ONE POINT'S UPDATE of the accumulator holding `acc`, from the point's label, posterior and lane-index blocks:
    each half rewritten with the body's sum of that half and the half's contraction. -/
def step (x0 : Vec F S1x8192x1 .i32) (x1 : Vec F S1x8192x16 .f32) (x2 : Vec F S8192x256 .i32) (acc : Vec F S16x512 .f32) :
    Vec F S16x512 .f32 :=
  View.canon [(⟨R1, k0_pay1 (k0_pay8 x0 x1 x2 (View.ld acc R1))⟩ : View.Piece (Elt F) S16x512 .f32),
    ⟨R0, k0_pay7 x0 x1 x2 (View.ld acc R0)⟩]

/-- The update at an entry of the high half, -/
theorem step_hi (x0 : Vec F S1x8192x1 .i32) (x1 : Vec F S1x8192x16 .f32) (x2 : Vec F S8192x256 .i32) (acc : Vec F S16x512 .f32)
    (x : S16x256.Idx) : step x0 x1 x2 acc (R1.emb x) = k0_pay1 (k0_pay8 x0 x1 x2 (View.ld acc R1)) x :=
  View.canon_cons_emb R1 _ _ x

/-- An entry of the low half is not in the high half. -/
theorem lo_not_hi (x : S16x256.Idx) : R0.emb x ∉ R1.set := by
  rw [Rect.mem_set_unit]
  intro h
  have h1 := (h 1).1
  have e : ((R0.emb x) 1 : ℕ) = 0 + 1 * (x 1).val := rfl
  have hx : (x 1).val < 256 := (x 1).isLt
  rw [e] at h1
  have : (![0, 256] : Fin 2 → ℕ) 1 = 256 := rfl
  omega

/-- An entry of the high half is not in the low half. -/
theorem hi_not_lo (x : S16x256.Idx) : R1.emb x ∉ R0.set := by
  rw [Rect.mem_set_unit]
  intro h
  have h1 := (h 1).2
  have e : ((R1.emb x) 1 : ℕ) = 256 + 1 * (x 1).val := rfl
  rw [e] at h1
  have h2 : (![0, 0] : Fin 2 → ℕ) 1 = 0 := rfl
  have h3 : S16x256.size 1 = 256 := rfl
  omega

/-- and of the low half. -/
theorem step_lo (x0 : Vec F S1x8192x1 .i32) (x1 : Vec F S1x8192x16 .f32) (x2 : Vec F S8192x256 .i32) (acc : Vec F S16x512 .f32)
    (x : S16x256.Idx) : step x0 x1 x2 acc (R0.emb x) = k0_pay7 x0 x1 x2 (View.ld acc R0) x := by
  unfold step
  refine (View.canon_cons_of_not_mem (⟨R1, k0_pay1 (k0_pay8 x0 x1 x2 (View.ld acc R1))⟩ : View.Piece (Elt F) S16x512 .f32) _ (lo_not_hi x)).trans ?_
  exact View.canon_cons_emb R0 _ _ x

/-- A point that neither starts nor ends a core's sweep updates the carried accumulator. -/
theorem soutB (c : Dev nD) (i : grid0.Coords) (arg2 : Memref sig .tc .vmem S1x8192x1 .i32) (harg2 : arg2.IsWhole) (arg3 : Memref sig .tc .vmem S1x8192x16 .f32) (harg3 : arg3.IsWhole) (arg4 : Memref sig .tc .vmem S8192x256 .i32) (harg4 : arg4.IsWhole) (arg5 : Memref sig .tc .vmem S1x16x512 .f32) (harg5 : arg5.IsWhole) (arg6 : Memref sig .tc .vmem S16x512 .f32) (harg6 : arg6.IsWhole) (hc0 : ¬cond0_0 i) (hc1 : ¬cond0_1 i)
    (x0 : Vec F S1x8192x1 .i32) (x1 : Vec F S1x8192x16 .f32) (x2 : Vec F S8192x256 .i32) (xs0 : Vec F S16x512 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  simp only [View.readAt_eq_ld, harg2.read_unread, harg3.read_unread, harg4.read_unread, harg6.read_unread,
    View.ld_unit_zero (S := S1x8192x1) hz3, View.ld_unit_zero (S := S1x8192x16) hz3, View.ld_unit_zero (S := S8192x256) hz2]
  rfl

/-- The last point of a core's sweep updates it the same way, -/
theorem soutC (c : Dev nD) (i : grid0.Coords) (arg2 : Memref sig .tc .vmem S1x8192x1 .i32) (harg2 : arg2.IsWhole) (arg3 : Memref sig .tc .vmem S1x8192x16 .f32) (harg3 : arg3.IsWhole) (arg4 : Memref sig .tc .vmem S8192x256 .i32) (harg4 : arg4.IsWhole) (arg5 : Memref sig .tc .vmem S1x16x512 .f32) (harg5 : arg5.IsWhole) (arg6 : Memref sig .tc .vmem S16x512 .f32) (harg6 : arg6.IsWhole) (hc0 : ¬cond0_0 i) (hc1 : cond0_1 i)
    (x0 : Vec F S1x8192x1 .i32) (x1 : Vec F S1x8192x16 .f32) (x2 : Vec F S8192x256 .i32) (xs0 : Vec F S16x512 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  simp only [View.readAt_eq_ld, harg2.read_unread, harg3.read_unread, harg4.read_unread, harg6.read_unread,
    View.ld_unit_zero (S := S1x8192x1) hz3, View.ld_unit_zero (S := S1x8192x16) hz3, View.ld_unit_zero (S := S8192x256) hz2]
  rfl

/-- and stores the updated accumulator, re-laid, as the output block. -/
theorem outC (c : Dev nD) (i : grid0.Coords) (arg2 : Memref sig .tc .vmem S1x8192x1 .i32) (harg2 : arg2.IsWhole) (arg3 : Memref sig .tc .vmem S1x8192x16 .f32) (harg3 : arg3.IsWhole) (arg4 : Memref sig .tc .vmem S8192x256 .i32) (harg4 : arg4.IsWhole) (arg5 : Memref sig .tc .vmem S1x16x512 .f32) (harg5 : arg5.IsWhole) (arg6 : Memref sig .tc .vmem S16x512 .f32) (harg6 : arg6.IsWhole) (hc0 : ¬cond0_0 i) (hc1 : cond0_1 i)
    (x0 : Vec F S1x8192x1 .i32) (x1 : Vec F S1x8192x16 .f32) (x2 : Vec F S8192x256 .i32) (xs0 : Vec F S16x512 .f32) :
    out0_C_3 c i arg2 harg2 arg3 harg3 arg4 harg4 arg5 harg5 arg6 harg6 hc0 hc1 x0 x1 x2 xs0 = k0_pay2 (step x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readCov_eq_canon', View.readAt_eq_ld, harg2.read_unread, harg3.read_unread, harg4.read_unread, harg6.read_unread,
    View.ld_unit_zero (S := S1x8192x1) hz3, View.ld_unit_zero (S := S1x8192x16) hz3, View.ld_unit_zero (S := S8192x256) hz2]
  refine congrArg k0_pay2 ?_
  exact View.ld_unit_zero (S := S16x512) hz2 _ _

/-- A load of the low half right after the reset reads the reset's block there, -/
theorem readCov_reset_lo (v : View sig .tc .vmem S16x512 .f32) (z : Vec F S16x512 .f32) :
    v.readCov [(⟨RW, z⟩ : View.Piece (Elt F) S16x512 .f32)] R0.toLoadRect = View.ld z R0 := by
  rw [View.readCov_eq_canon', View.canon_unit_zero hz2]

/-- and a load of the high half after the reset and the low half's update still reads the reset's block. -/
theorem readCov_reset_hi (v : View sig .tc .vmem S16x512 .f32) (z : Vec F S16x512 .f32) (w : S16x256.Idx → Elt F .f32) :
    v.readCov [(⟨R0, w⟩ : View.Piece (Elt F) S16x512 .f32), ⟨RW, z⟩] R1.toLoadRect = View.ld z R1 := by
  rw [View.readCov_eq_canon']
  funext j
  refine (View.canon_cons_of_not_mem (⟨R0, w⟩ : View.Piece (Elt F) S16x512 .f32) _ (hi_not_lo j)).trans ?_
  rw [View.canon_unit_zero hz2]
  rfl

/-- The first point of a core's sweep stores the zero block and then updates it: the carried contents are not read. -/
theorem soutA (c : Dev nD) (i : grid0.Coords) (arg2 : Memref sig .tc .vmem S1x8192x1 .i32) (harg2 : arg2.IsWhole) (arg3 : Memref sig .tc .vmem S1x8192x16 .f32) (harg3 : arg3.IsWhole) (arg4 : Memref sig .tc .vmem S8192x256 .i32) (harg4 : arg4.IsWhole) (arg5 : Memref sig .tc .vmem S1x16x512 .f32) (harg5 : arg5.IsWhole) (arg6 : Memref sig .tc .vmem S16x512 .f32) (harg6 : arg6.IsWhole) (hc0 : cond0_0 i) (hc1 : ¬cond0_1 i)
    (x0 : Vec F S1x8192x1 .i32) (x1 : Vec F S1x8192x16 .f32) (x2 : Vec F S8192x256 .i32) :
    sout0_A_0 c i arg2 harg2 arg3 harg3 arg4 harg4 arg5 harg5 arg6 harg6 hc0 hc1 x0 x1 x2 = step x0 x1 x2 k0_pay3 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  simp only [View.readAt_eq_ld, harg2.read_unread, harg3.read_unread, harg4.read_unread,
    View.ld_unit_zero (S := S1x8192x1) hz3, View.ld_unit_zero (S := S1x8192x16) hz3, View.ld_unit_zero (S := S8192x256) hz2]
  rw [readCov_reset_hi, readCov_reset_lo]
  funext y
  rcases mem_halves y with h | h
  · obtain ⟨x, rfl⟩ := R0.exists_idx_of_mem h
    rw [show R0.idx x = R0.emb x from rfl, step_lo]
    refine (View.canon_cons_of_not_mem (⟨R1, k0_pay1 (k0_pay8 x0 x1 x2 (View.ld k0_pay3 R1))⟩ : View.Piece (Elt F) S16x512 .f32) _ (lo_not_hi x)).trans ?_
    exact View.canon_cons_emb R0 _ _ x
  · obtain ⟨x, rfl⟩ := R1.exists_idx_of_mem h
    rw [show R1.idx x = R1.emb x from rfl, step_hi]
    exact View.canon_cons_emb R1 _ _ x

end Cert.KernelIdeal.Pieces

end
-- ==== Proof.Payload.lean ====
/-
  The kernel body's arithmetic, read at one index of what it stores, at the ideal float values (extended reals, exact
  operations, format changes the identity).

  One grid step handles a tile of 8192 rows. Each row `r` has a label word `w r` and sixteen posterior values. For a
  chunk of 256 bins starting at `c` (`c = 0` and `c = 256`) the body compares `w r - c` (32-bit wrapping) with the bin
  word at `(r, j)`, turns the equality bit into the float `1` or `0`, and multiplies the transposed posterior tile
  with that one-hot matrix on the matrix unit, contracting the rows. So at channel `ch` and chunk column `j` it adds to
  the accumulator the sum, over the rows whose shifted label word is the bin word, of the row's posterior at `ch`
  (`pay7_apply`, `pay8_apply`). The accumulator starts from zero (`pay3_apply`); the remaining two stored values are
  the second half as computed (`pay1_eq`) and the accumulator under a leading unit axis (`pay2_apply`).
-/
import proofs.«409385_j34368328303367_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The product's operand indices

The matrix product contracts axis 0 of both operands (the 8192 rows of the tile): at result index `(ch, j)` and
contraction position `q` the left operand is read at `(q, ch)` and the right one at `(q, j)`. One statement per
operand axis. -/

theorem lhs_axis0 (i : S16x256.Idx) (q : dot_S8192x16_S8192x256_S16x256_0_0_1_1_n_n.contr.Idx) :
    (dot_S8192x16_S8192x256_S16x256_0_0_1_1_n_n.lhsIdx i q 0).val = (q ⟨0, by decide⟩).val :=
  dot_S8192x16_S8192x256_S16x256_0_0_1_1_n_n.lhsIdx_val_of_single rfl i q

theorem lhs_axis1 (i : S16x256.Idx) (q : dot_S8192x16_S8192x256_S16x256_0_0_1_1_n_n.contr.Idx) :
    (dot_S8192x16_S8192x256_S16x256_0_0_1_1_n_n.lhsIdx i q 1).val = (i 0).val := by
  unfold DotDims.lhsIdx
  rw [dif_neg (show ¬(1 : Fin S8192x16.rank) ∈ dot_S8192x16_S8192x256_S16x256_0_0_1_1_n_n.lhsBatch by decide),
    dif_pos (show (1 : Fin S8192x16.rank) ∈ dot_S8192x16_S8192x256_S16x256_0_0_1_1_n_n.lhsNonContracting by decide)]
  rfl

theorem rhs_axis0 (i : S16x256.Idx) (q : dot_S8192x16_S8192x256_S16x256_0_0_1_1_n_n.contr.Idx) :
    (dot_S8192x16_S8192x256_S16x256_0_0_1_1_n_n.rhsIdx i q 0).val = (q ⟨0, by decide⟩).val :=
  dot_S8192x16_S8192x256_S16x256_0_0_1_1_n_n.rhsIdx_val_of_single rfl i q

theorem rhs_axis1 (i : S16x256.Idx) (q : dot_S8192x16_S8192x256_S16x256_0_0_1_1_n_n.contr.Idx) :
    (dot_S8192x16_S8192x256_S16x256_0_0_1_1_n_n.rhsIdx i q 1).val = (i 1).val := by
  unfold DotDims.rhsIdx
  rw [dif_neg (show ¬(1 : Fin S8192x256.rank) ∈ dot_S8192x16_S8192x256_S16x256_0_0_1_1_n_n.rhsBatch by decide),
    dif_pos (show (1 : Fin S8192x256.rank) ∈ dot_S8192x16_S8192x256_S16x256_0_0_1_1_n_n.rhsNonContracting by decide)]
  rfl

/-! ## One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot entry -/

/-- The equality bit of two words, widened to 32 bits and converted as a signed integer, is the extended real
    `1` where the words agree and `0` where they differ. -/
theorem onehot_word (x y : BitVec 32) :
    FloatOps.sitofp (F := Ideal) .f32 ((IntOp.cmpi .eq x y).setWidth 32) = if x = y then (1 : EReal) else 0 := by
  show ((((IntOp.cmpi .eq x y).setWidth 32).toInt : ℝ) : EReal) = _
  have h1 : ((BitVec.ofBool true).setWidth 32).toInt = 1 := by decide
  have h0 : ((BitVec.ofBool false).setWidth 32).toInt = 0 := by decide
  unfold IntOp.cmpi
  by_cases h : x = y
  · rw [if_pos h, show (x == y) = true from beq_iff_eq.mpr h, h1]; simp
  · rw [if_neg h, show (x == y) = false from beq_eq_false_iff_ne.mpr h, h0]; simp

/-! ## The product of the posterior tile with a one-hot chunk -/

/-- The matrix product of the transposed posterior tile with the one-hot chunk at offset `c`, read at channel `ch`
    and chunk column `j`: the sum over the tile's rows of the row's posterior at `ch`, counted where the row's label
    word less `c` is the bin word at `(r, j)`. -/
theorem dot_onehot_apply (c : BitVec 32) (v3 : Vec Ideal S1x8192x1 .i32) (v5 : Vec Ideal S1x8192x16 .f32)
    (v8 : Vec Ideal S8192x256 .i32) (ch : Fin 16) (j : Fin 256) :
    matmul (F := Ideal) dot_S8192x16_S8192x256_S16x256_0_0_1_1_n_n none (k0_pay5 v5)
        (truncf .bf16
          (sitofp .f32
            (extui 32
              (cmpi .eq (broadcastTo S8192x256 (subi (k0_pay4 v3) (broadcast S8192x1 c)) broadcasts_S8192x1_S8192x256)
                (k0_pay6 v8))
              natLt_1_32))
          bitsLt_bf16_f32)
        (constant S16x256 .f32 0x00000000#32) (ix2 ch j)
      = ∑ r : Fin 8192, v5 (ix3 0 r ch) * (if IntOp.subi (v3 (ix3 0 r 0)) c = v8 (ix2 r j) then (1 : EReal) else 0) := by
  simp only [matmul]
  rw [Ideal.matmul_constant_zero_apply,
    ← Equiv.sum_comp (contrEquiv1 dot_S8192x16_S8192x256_S16x256_0_0_1_1_n_n 8192 rfl rfl).symm]
  refine Finset.sum_congr rfl fun r _ => ?_
  have hk := contrEquiv1_symm_val dot_S8192x16_S8192x256_S16x256_0_0_1_1_n_n 8192 rfl rfl r
  have el : dot_S8192x16_S8192x256_S16x256_0_0_1_1_n_n.lhsIdx (ix2 ch j)
      ((contrEquiv1 dot_S8192x16_S8192x256_S16x256_0_0_1_1_n_n 8192 rfl rfl).symm r) = ix2 r ch :=
    funext fun a => Fin.ext (by
      match a with
      | ⟨0, _⟩ => exact (lhs_axis0 _ _).trans hk
      | ⟨1, _⟩ => exact lhs_axis1 _ _)
  have er : dot_S8192x16_S8192x256_S16x256_0_0_1_1_n_n.rhsIdx (ix2 ch j)
      ((contrEquiv1 dot_S8192x16_S8192x256_S16x256_0_0_1_1_n_n 8192 rfl rfl).symm r) = ix2 r j :=
    funext fun a => Fin.ext (by
      match a with
      | ⟨0, _⟩ => exact (rhs_axis0 _ _).trans hk
      | ⟨1, _⟩ => exact rhs_axis1 _ _)
  rw [el, er]
  -- the left factor: the posterior tile without its unit axis, the format change the identity
  have hl : k0_pay5 (F := Ideal) v5 (ix2 r ch) = v5 (ix3 0 r ch) := by
    show shapeCast S8192x16 v5 shapeCasts_S1x8192x16_S8192x16 (ix2 r ch) = _
    exact shapeCast_1ab_ab_apply v5 _ r ch
  -- the right factor: the equality bit of the row's shifted label word and the bin word, as a float
  have hr : (truncf .bf16
          (sitofp (F := Ideal) .f32
            (extui 32
              (cmpi .eq (broadcastTo S8192x256 (subi (k0_pay4 v3) (broadcast S8192x1 c)) broadcasts_S8192x1_S8192x256)
                (k0_pay6 v8))
              natLt_1_32))
          bitsLt_bf16_f32 : FVec Ideal S8192x256 .bf16) (ix2 r j)
        = if IntOp.subi (v3 (ix3 0 r 0)) c = v8 (ix2 r j) then (1 : EReal) else 0 := by
    show FloatOps.sitofp (F := Ideal) .f32
        ((IntOp.cmpi .eq
          (broadcastTo S8192x256 (subi (k0_pay4 v3) (broadcast S8192x1 c)) broadcasts_S8192x1_S8192x256 (ix2 r j))
          (k0_pay6 v8 (ix2 r j))).setWidth 32) = _
    rw [onehot_word, broadcastTo_a1_ab_apply]
    show (if IntOp.subi (shapeCast S8192x1 v3 shapeCasts_S1x8192x1_S8192x1 (ix2 r (0 : Fin 1))) c
        = shapeCast S8192x256 v8 shapeCasts_S8192x256_S8192x256 (ix2 r j) then (1 : EReal) else 0) = _
    rw [shapeCast_1ab_ab_apply, shapeCast_self]
  rw [hl, hr]

/-! ## The payloads -/

/-- What the body stores into the accumulator's first half: the half as loaded plus the tile's contribution to
    bins `0 … 255`. -/
theorem pay7_apply (v3 : Vec Ideal S1x8192x1 .i32) (v5 : Vec Ideal S1x8192x16 .f32) (v8 : Vec Ideal S8192x256 .i32)
    (v18 : Vec Ideal S16x256 .f32) (ch : Fin 16) (j : Fin 256) :
    k0_pay7 (F := Ideal) v3 v5 v8 v18 (ix2 ch j)
      = v18 (ix2 ch j) + ∑ r : Fin 8192, v5 (ix3 0 r ch)
          * (if IntOp.subi (v3 (ix3 0 r 0)) 0#32 = v8 (ix2 r j) then (1 : EReal) else 0) := by
  unfold k0_pay7
  rw [shapeCast_self, addf_apply, dot_onehot_apply]

/-- What the body stores into the accumulator's second half: the half as loaded plus the tile's contribution to
    bins `256 … 511`. -/
theorem pay8_apply (v3 : Vec Ideal S1x8192x1 .i32) (v5 : Vec Ideal S1x8192x16 .f32) (v8 : Vec Ideal S8192x256 .i32)
    (v31 : Vec Ideal S16x256 .f32) (ch : Fin 16) (j : Fin 256) :
    k0_pay8 (F := Ideal) v3 v5 v8 v31 (ix2 ch j)
      = v31 (ix2 ch j) + ∑ r : Fin 8192, v5 (ix3 0 r ch)
          * (if IntOp.subi (v3 (ix3 0 r 0)) 256#32 = v8 (ix2 r j) then (1 : EReal) else 0) := by
  unfold k0_pay8
  rw [addf_apply, dot_onehot_apply]

/-- The accumulator's initial value, stored at a core's first step, is zero everywhere. -/
theorem pay3_apply (i : S16x512.Idx) : k0_pay3 (F := Ideal) i = 0 := by
  unfold k0_pay3
  rw [shapeCast_self, broadcast_apply]
  exact Ideal.ofBits_zero_f32

/-- The second half is stored as computed. -/
theorem pay1_eq (v32 : FVec Ideal S16x256 .f32) : k0_pay1 (F := Ideal) v32 = v32 := by
  unfold k0_pay1
  exact shapeCast_self v32 _

/-- The accumulator written to the core's output block: entry `(0, ch, b)` of the block is entry `(ch, b)`. -/
theorem pay2_apply (v39 : Vec Ideal S16x512 .f32) (ch : Fin 16) (b : Fin 512) :
    k0_pay2 (F := Ideal) v39 (ix3 0 ch b) = v39 (ix2 ch b) := by
  unfold k0_pay2
  exact shapeCast_ab_1ab_apply v39 _ 0 ch b

end Cert.KernelIdeal.Pay

end
-- ==== Proof.Hist.lean ====
/-
  The histogram both programs compute, as a function of the two label streams and the posterior rows: bin `b`,
  channel `ch` holds the sum of `post n ch` over the rows `n` whose composite label word `32 · x n + y n` is `b`.
  Stated over a RANGE of rows `[lo, lo + len)`, so that a tile's contribution, a core's half and the whole are
  one definition at three ranges, and adjoining ranges add.
-/
import Idealize.ShloMosaic.PureOps.Ideal
import Idealize.ShloMosaic.Lib.ValueIdx

noncomputable section

namespace Cert.Hist

open Idealize.ShloMosaic Idealize.ShloMosaic.ValueIdx

/-- The rows `n ∈ [lo, lo + len)` whose composite label word is bin `b`: their posterior at channel `ch`, summed. -/
def part (cmp : Fin 4194304 → BitVec 32) (post : Fin 4194304 → Fin 16 → EReal) (lo len : ℕ) (b : Fin 512) (ch : Fin 16) : EReal :=
  ∑ n ∈ Finset.univ.filter (fun n : Fin 4194304 => lo ≤ n.val ∧ n.val < lo + len ∧ cmp n = BitVec.ofNat 32 b.val), post n ch

/-- Row `n`'s composite label word, `32 · x n + y n` in 32-bit wrapping arithmetic, as both programs compute it. -/
def cmpOf (x0 x1 : (⟨1, ![4194304]⟩ : Shape).Idx → BitVec 32) (n : Fin 4194304) : BitVec 32 :=
  IntOp.addi (IntOp.muli (x0 (ix1 n)) 32#32) (x1 (ix1 n))

/-- Row `n`'s posterior at channel `ch`. -/
def postOf (x2 : (⟨2, ![4194304, 16]⟩ : Shape).Idx → EReal) (n : Fin 4194304) (ch : Fin 16) : EReal := x2 (ix2 n ch)

/-- The bin of cluster `k` and symbol `y`. -/
def bin (k : Fin 16) (y : Fin 32) : Fin 512 := ⟨k.val * 32 + y.val, by have := k.isLt; have := y.isLt; omega⟩

/-- The emission numerator before the smoothing constant: at `(k, y, ch)` the whole histogram's bin `32 k + y`. -/
def numer (x0 x1 : (⟨1, ![4194304]⟩ : Shape).Idx → BitVec 32) (x2 : (⟨2, ![4194304, 16]⟩ : Shape).Idx → EReal) :
    (⟨3, ![16, 32, 16]⟩ : Shape).Idx → EReal :=
  fun i => part (cmpOf x0 x1) (postOf x2) 0 4194304 (bin (i 0) (i 1)) (i 2)

end Cert.Hist

end
-- ==== Proof.HistLaws.lean ====
/-
  Laws of the ranged histogram `part`: an empty range contributes nothing, adjoining ranges add, and the
  contraction of a tile's 8192 posterior rows against the one-hot of their label words is that tile's part.
  Also the two chunk compares read as plain equalities of label words: comparing `w - 0` resp. `w - 256`
  with a lane number `j < 256` asks whether `w` is bin `j` resp. bin `j + 256`.
-/
import proofs.«409385_j34368328303367_3_alg».proof.Proof.Hist
import Mathlib.Algebra.BigOperators.Group.Finset.Basic
import Mathlib.Data.EReal.Basic
import Mathlib.Data.BitVec

noncomputable section

namespace Cert.Hist

open Idealize.ShloMosaic Idealize.ShloMosaic.ValueIdx

/-- A range of no rows has no row in any bin: its part is the empty sum. -/
theorem part_zero (cmp : Fin 4194304 → BitVec 32) (post : Fin 4194304 → Fin 16 → EReal) (lo : ℕ)
    (b : Fin 512) (ch : Fin 16) :
    part cmp post lo 0 b ch = 0 := by
  unfold part
  apply Finset.sum_eq_zero
  intro n hn
  simp only [Finset.mem_filter] at hn
  omega

/-- The rows of `[lo, lo + (a + c))` in bin `b` are those of `[lo, lo + a)` together with those of
`[lo + a, lo + a + c)`, and no row is in both: the parts add. -/
theorem part_add (cmp : Fin 4194304 → BitVec 32) (post : Fin 4194304 → Fin 16 → EReal) (lo a c : ℕ)
    (b : Fin 512) (ch : Fin 16) :
    part cmp post lo (a + c) b ch = part cmp post lo a b ch + part cmp post (lo + a) c b ch := by
  unfold part
  rw [← Finset.sum_union]
  · refine Finset.sum_congr ?_ (fun _ _ => rfl)
    ext n
    simp only [Finset.mem_filter, Finset.mem_union, Finset.mem_univ, true_and]
    constructor
    · rintro ⟨h1, h2, h3⟩
      by_cases h : n.val < lo + a
      · exact Or.inl ⟨h1, h, h3⟩
      · exact Or.inr ⟨by omega, by omega, h3⟩
    · rintro (⟨h1, h2, h3⟩ | ⟨h1, h2, h3⟩)
      · exact ⟨h1, by omega, h3⟩
      · exact ⟨by omega, by omega, h3⟩
  · rw [Finset.disjoint_filter]
    intro n _ h1 h2
    omega

/-- A tile's one-hot contraction is the tile's part. A row whose label word is not the bin contributes
`post · 0 = 0` (true of every extended real), a row whose word is the bin contributes `post · 1 = post`; what is
left is the sum of the posterior over the tile's rows in the bin, and row `r` of the tile is row `lo + r` of the
whole. -/
theorem part_tile (cmp : Fin 4194304 → BitVec 32) (post : Fin 4194304 → Fin 16 → EReal) (lo : ℕ)
    (h : lo + 8192 ≤ 4194304) (b : Fin 512) (ch : Fin 16) :
    (∑ r : Fin 8192, post ⟨lo + r.val, by have := r.isLt; omega⟩ ch *
        (if cmp ⟨lo + r.val, by have := r.isLt; omega⟩ = BitVec.ofNat 32 b.val then (1 : EReal) else 0))
      = part cmp post lo 8192 b ch := by
  unfold part
  simp only [mul_ite, mul_one, mul_zero]
  rw [← Finset.sum_filter]
  refine Finset.sum_bij'
    (fun r _ => (⟨lo + r.val, by have := r.isLt; omega⟩ : Fin 4194304))
    (fun n hn => (⟨n.val - lo, by have := (Finset.mem_filter.mp hn).2; omega⟩ : Fin 8192))
    ?_ ?_ ?_ ?_ ?_
  · intro r hr
    have hr' := (Finset.mem_filter.mp hr).2
    have := r.isLt
    simp only [Finset.mem_filter, Finset.mem_univ, true_and]
    exact ⟨by omega, by omega, hr'⟩
  · intro n hn
    have hn' := (Finset.mem_filter.mp hn).2
    simp only [Finset.mem_filter, Finset.mem_univ, true_and]
    have e : (⟨lo + (n.val - lo), by have := n.isLt; omega⟩ : Fin 4194304) = n := by
      apply Fin.ext
      show lo + (n.val - lo) = n.val
      omega
    rw [e]
    exact hn'.2.2
  · intro r _
    apply Fin.ext
    show lo + r.val - lo = r.val
    omega
  · intro n hn
    have hn' := (Finset.mem_filter.mp hn).2
    apply Fin.ext
    show lo + (n.val - lo) = n.val
    omega
  · intro r _
    rfl

/-- Subtracting the first chunk's base `0` changes nothing: the compare with lane `j` asks whether the word is `j`. -/
theorem sub0_eq_iff (w : BitVec 32) (j : Fin 256) :
    IntOp.subi w 0#32 = BitVec.ofNat 32 j.val ↔ w = BitVec.ofNat 32 j.val := by
  unfold IntOp.subi
  rw [BitVec.sub_zero]

/-- Subtracting the second chunk's base `256` and comparing with lane `j` asks whether the word is `j + 256`:
32-bit words form a ring, so `w - 256 = j` exactly when `w = j + 256`. -/
theorem sub256_eq_iff (w : BitVec 32) (j : Fin 256) :
    IntOp.subi w 256#32 = BitVec.ofNat 32 j.val ↔ w = BitVec.ofNat 32 (j.val + 256) := by
  unfold IntOp.subi
  rw [sub_eq_iff_eq_add, BitVec.ofNat_add]

end Cert.Hist

end
-- ==== Proof.Blocks.lean ====
/-
  What the histogram kernel's three input windows hold at a grid point, in terms of the program's argument arrays.
  The grid is 2 cores × 256 steps; at point `t` the core is `t / 256` and the step `t % 256`, and a tile is 8192
  consecutive rows of the core's half of the 4194304 rows. The label window holds the rows' composite label words
  `32 · x n + y n`, the posterior window holds the rows' posteriors, and the third window is the constant table whose
  entry `(r, j)` is the column number `j`.
-/
import proofs.«409385_j34368328303367_3_alg».proof.Proof.Hist
import proofs.«409385_j34368328303367_3_alg».proof.Proof.Gen.KernelIdeal.Frame.Runs
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- the three argument arrays on core c -/
abbrev ax (c : Dev nD) : IVec S4194304 32 := m ((c.tc : Thread nD τ).loc main_arg0)
abbrev ay (c : Dev nD) : IVec S4194304 32 := m ((c.tc : Thread nD τ).loc main_arg1)
abbrev ap (c : Dev nD) : FVec Ideal S4194304x16 .f32 := m ((c.tc : Thread nD τ).loc main_arg2)

/-- the array row that row r of the tile at grid point t is: core (t / 256)'s half, step (t % 256)'s tile -/
def rowOf (t : Fin cfg0.N) (r : Fin 8192) : Fin 4194304 :=
  ⟨(t.val / 256) * 2097152 + (t.val % 256) * 8192 + r.val, by
    have h : t.val < 512 := lt_of_lt_of_eq t.isLt N_0
    have := r.isLt
    omega⟩

/-- the input blocks at literal types -/
abbrev cblk (c : Dev nD) (t : Fin cfg0.N) : Vec Ideal S1x8192x1 .i32 := iblk m c 0 t
abbrev pblk (c : Dev nD) (t : Fin cfg0.N) : Vec Ideal S1x8192x16 .f32 := iblk m c 1 t
abbrev iblk2 (c : Dev nD) (t : Fin cfg0.N) : Vec Ideal S8192x256 .i32 := iblk m c 2 t

/-! ## The three arrays the windows are cut from -/

/-- The label array the first window is cut from: the vector `32 · x + y` of composite label words, re-laid from
    4194304 rows to 2 halves × 2097152 rows × 1. -/
theorem V_v3 (c : Dev nD) :
    (V m c main_v3 : S2x2097152x1.Idx → BitVec 32)
      = shapeCast S2x2097152x1 (addi (muli (ax m c) (broadcastInDim S4194304 ![] Facts₀.bcast_S_S4194304 (constantI S_ 32 32#32))) (ay m c))
          Facts₀.shapeCasts_S4194304_S2x2097152x1 := by
  dsimp only [Gen.V, Gen.V0]
  simp only [Gen.hostOps0, List.flatten_cons, List.flatten_nil, List.append_nil]
  after_results
  rfl

/-- The posterior array the second window is cut from: the posterior re-laid from 4194304 rows × 16 channels to
    2 halves × 2097152 rows × 16 channels. -/
theorem V_v4 (c : Dev nD) :
    (V m c main_v4 : S2x2097152x16.Idx → EReal)
      = shapeCast S2x2097152x16 (ap m c) Facts₀.shapeCasts_S4194304x16_S2x2097152x16 := by
  dsimp only [Gen.V, Gen.V0]
  simp only [Gen.hostOps0, List.flatten_cons, List.flatten_nil, List.append_nil]
  after_results
  rfl

/-- The table the third window is cut from: 8192 × 256, each entry its own column number. -/
theorem V_v5 (c : Dev nD) :
    (V m c main_v5 : S8192x256.Idx → BitVec 32) = iotaInDim S8192x256 32 1 := by
  dsimp only [Gen.V, Gen.V0]
  simp only [Gen.hostOps0, List.flatten_cons, List.flatten_nil, List.append_nil]
  after_results

/-- The re-laid label array at `(h, q, 0)` is the composite label word of row `n = 2097152 · h + q`: the two layouts
    share the row-major position, and the factor 32 is the same constant in every row. -/
theorem v3_at (c : Dev nD) (j : S2x2097152x1.Idx) (n : Fin 4194304) (h : n.val = (j 0).val * 2097152 + (j 1).val) :
    (V m c main_v3 : S2x2097152x1.Idx → BitVec 32) j = Cert.Hist.cmpOf (ax m c) (ay m c) n := by
  rw [V_v3]
  rw [shapeCast_apply _ _ j (ix1 n) (by
    rw [Shape.rowMajor_val_one, Shape.rowMajor_val_three]
    have h2 : (j 2).val < 1 := (j 2).isLt
    show n.val = ((j 0).val * 2097152 + (j 1).val) * 1 + (j 2).val
    omega)]
  unfold Cert.Hist.cmpOf addi muli
  rw [broadcastInDim_apply _ _ _ (ix1 n) ix0 (fun a => a.elim0)]
  rfl

/-- The re-laid posterior array at `(h, q, ch)` is the posterior of row `n = 2097152 · h + q` at channel `ch`. -/
theorem v4_at (c : Dev nD) (j : S2x2097152x16.Idx) (n : Fin 4194304) (ch : Fin 16)
    (h : n.val = (j 0).val * 2097152 + (j 1).val) (hch : (j 2).val = ch.val) :
    (V m c main_v4 : S2x2097152x16.Idx → EReal) j = Cert.Hist.postOf (ap m c) n ch := by
  rw [V_v4]
  exact shapeCast_apply _ _ j (ix2 n ch) (by
    rw [Shape.rowMajor_val_two, Shape.rowMajor_val_three]
    show n.val * 16 + ch.val = ((j 0).val * 2097152 + (j 1).val) * 16 + (j 2).val
    omega)

/-! ## Which block each window is on at a grid point -/

/-- The label window's block index at point `t` is (core, step, 0). -/
theorem idx0 : ∀ t : Fin cfg0.N, win0_0.index t 0 = t.val / 256 ∧ win0_0.index t 1 = t.val % 256 ∧ win0_0.index t 2 = 0 :=
  (by decide +kernel : ∀ t : Fin grid0.N, win0_0.index t 0 = t.val / 256 ∧ win0_0.index t 1 = t.val % 256 ∧ win0_0.index t 2 = 0)
/-- The posterior window's block index at point `t` is (core, step, 0). -/
theorem idx1 : ∀ t : Fin cfg0.N, win0_1.index t 0 = t.val / 256 ∧ win0_1.index t 1 = t.val % 256 ∧ win0_1.index t 2 = 0 :=
  (by decide +kernel : ∀ t : Fin grid0.N, win0_1.index t 0 = t.val / 256 ∧ win0_1.index t 1 = t.val % 256 ∧ win0_1.index t 2 = 0)
/-- The table window stays on block (0, 0): the whole table. -/
theorem idx2 : ∀ t : Fin cfg0.N, win0_2.index t 0 = 0 ∧ win0_2.index t 1 = 0 :=
  (by decide +kernel : ∀ t : Fin grid0.N, win0_2.index t 0 = 0 ∧ win0_2.index t 1 = 0)

/-! ## The blocks at an index -/

/-- Row `r` of the label tile at point `t` is the composite label word of array row `rowOf t r`. -/
theorem cblk_apply (c : Dev nD) (t : Fin cfg0.N) (r : Fin 8192) :
    cblk m c t (ix3 0 r 0) = Cert.Hist.cmpOf (ax m c) (ay m c) (rowOf t r) := by
  obtain ⟨h0, h1, _⟩ := idx0 t
  unfold cblk iblk
  rw [View.read_apply]
  show (V m c main_v3 : S2x2097152x1.Idx → BitVec 32) _ = _
  refine v3_at m c _ (rowOf t r) ?_
  show (t.val / 256) * 2097152 + (t.val % 256) * 8192 + r.val
    = (win0_0.index t 0 * 1 + 1 * 0) * 2097152 + (win0_0.index t 1 * 8192 + 1 * r.val)
  rw [h0, h1]; omega

/-- Row `r`, channel `ch` of the posterior tile at point `t` is the posterior of array row `rowOf t r` at `ch`. -/
theorem pblk_apply (c : Dev nD) (t : Fin cfg0.N) (r : Fin 8192) (ch : Fin 16) :
    pblk m c t (ix3 0 r ch) = Cert.Hist.postOf (ap m c) (rowOf t r) ch := by
  obtain ⟨h0, h1, h2⟩ := idx1 t
  unfold pblk iblk
  rw [View.read_apply]
  show (V m c main_v4 : S2x2097152x16.Idx → EReal) _ = _
  refine v4_at m c _ (rowOf t r) ch ?_ ?_
  · show (t.val / 256) * 2097152 + (t.val % 256) * 8192 + r.val
      = (win0_1.index t 0 * 1 + 1 * 0) * 2097152 + (win0_1.index t 1 * 8192 + 1 * r.val)
    rw [h0, h1]; omega
  · show win0_1.index t 2 * 16 + 1 * ch.val = ch.val
    rw [h2]; omega

/-- Entry `(r, j)` of the table block is the column number `j`, at every point. -/
theorem iblk2_apply (c : Dev nD) (t : Fin cfg0.N) (r : Fin 8192) (j : Fin 256) :
    iblk2 m c t (ix2 r j) = BitVec.ofNat 32 j.val := by
  obtain ⟨_, h1⟩ := idx2 t
  unfold iblk2 iblk
  rw [View.read_apply]
  show (V m c main_v5 : S8192x256.Idx → BitVec 32) _ = _
  rw [V_v5]
  unfold iotaInDim
  congr 1
  show win0_2.index t 1 * 256 + 1 * j.val = j.val
  rw [h1]; omega

end Cert.KernelIdeal.Blocks

end
-- ==== Proof.Invariant.lean ====
/-
  The accumulator carried across a core's sweep IS the histogram of the rows swept so far: after the point at
  step `s` of core `h` the [16,512] scratch holds, at (channel, bin), the sum of the posteriors of the rows
  `[2097152 · h, 2097152 · h + 8192 · (s + 1))` whose composite label is the bin — by induction on the point: the
  first point of a sweep starts from zero, every other point adds its tile's part to what the point before left.
  The block the last point of a sweep stores for the output is that accumulator re-laid.
-/
import proofs.«409385_j34368328303367_3_alg».proof.Proof.Pieces
import proofs.«409385_j34368328303367_3_alg».proof.Proof.Payload
import proofs.«409385_j34368328303367_3_alg».proof.Proof.HistLaws
import proofs.«409385_j34368328303367_3_alg».proof.Proof.Blocks

set_option maxRecDepth 16384

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Pieces Cert.KernelIdeal.Pay Cert.KernelIdeal.Blocks Cert.Hist

variable (m : (ℓ : Loc nD τ sig) → Buf (Elt Ideal) ℓ)

/-- The composite label words and the posteriors of the 4194304 rows, on core `c`. -/
abbrev cmp (c : Dev nD) : Fin 4194304 → BitVec 32 := cmpOf (ax m c) (ay m c)
abbrev post (c : Dev nD) : Fin 4194304 → Fin 16 → EReal := postOf (ap m c)

/-- The first row of the tile at grid point `t`. -/
def lo (t : Fin cfg0.N) : ℕ := (t.val / 256) * 2097152 + (t.val % 256) * 8192

theorem lo_le (t : Fin cfg0.N) : lo t + 8192 ≤ 4194304 := by
  have h : t.val < 512 := lt_of_lt_of_eq t.isLt N_0
  unfold lo; omega

theorem rowOf_eq (t : Fin cfg0.N) (r : Fin 8192) :
    rowOf t r = ⟨lo t + r.val, by have := lo_le t; have := r.isLt; omega⟩ := rfl

/-- ONE POINT adds its tile's part of every bin to the accumulator. -/
theorem step_apply (c : Dev nD) (t : Fin cfg0.N) (acc : Vec Ideal S16x512 .f32) (ch : Fin 16) (b : Fin 512) :
    step (cblk m c t) (pblk m c t) (iblk2 m c t) acc (ix2 ch b)
      = acc (ix2 ch b) + part (cmp m c) (post m c) (lo t) 8192 b ch := by
  rw [← part_tile (cmp m c) (post m c) (lo t) (lo_le t) b ch]
  by_cases hb : b.val < 256
  · have e : (ix2 ch b : S16x512.Idx) = R0.emb (ix2 ch (⟨b.val, hb⟩ : Fin 256)) := by
      funext a; apply Fin.ext
      match a with
      | ⟨0, _⟩ => show ch.val = 0 + 1 * ch.val; omega
      | ⟨1, _⟩ => show b.val = 0 + 1 * b.val; omega
    rw [e, step_lo, pay7_apply]
    refine congrArg₂ (· + ·) rfl (Finset.sum_congr rfl fun r _ => ?_)
    rw [pblk_apply m c t r ch, cblk_apply m c t r, iblk2_apply m c t r ⟨b.val, hb⟩, rowOf_eq]
    exact congrArg₂ (· * ·) rfl (if_congr (sub0_eq_iff _ ⟨b.val, hb⟩) rfl rfl)
  · have hb' : b.val - 256 < 256 := by have := b.isLt; omega
    have e : (ix2 ch b : S16x512.Idx) = R1.emb (ix2 ch (⟨b.val - 256, hb'⟩ : Fin 256)) := by
      funext a; apply Fin.ext
      match a with
      | ⟨0, _⟩ => show ch.val = 0 + 1 * ch.val; omega
      | ⟨1, _⟩ => show b.val = 256 + 1 * (b.val - 256); omega
    rw [e, step_hi, pay1_eq, pay8_apply]
    refine congrArg₂ (· + ·) rfl (Finset.sum_congr rfl fun r _ => ?_)
    rw [pblk_apply m c t r ch, cblk_apply m c t r, iblk2_apply m c t r ⟨b.val - 256, hb'⟩, rowOf_eq]
    refine congrArg₂ (· * ·) rfl (if_congr ((sub256_eq_iff _ ⟨b.val - 256, hb'⟩).trans ?_) rfl rfl)
    have : b.val - 256 + 256 = b.val := by omega
    show _ = BitVec.ofNat 32 (b.val - 256 + 256) ↔ _
    rw [this]

/-- THE INVARIANT: the accumulator after the point at position `n`. -/
theorem acc_eq (c : Dev nD) : ∀ (n : ℕ) (hn : n < cfg0.N) (ch : Fin 16) (b : Fin 512),
    (outsAt0 m c n hn).2 (ix2 ch b)
      = part (cmp m c) (post m c) ((n / 256) * 2097152) ((n % 256 + 1) * 8192) b ch := by
  intro n
  induction n with
  | zero =>
    intro hn ch b
    have hA := outsAt0_A m c ⟨0, hn⟩ rfl (by show ¬(0 % 256 = 255); omega)
    rw [show outsAt0 m c 0 hn = outsAt0 m c (⟨0, hn⟩ : Fin cfg0.N).val (⟨0, hn⟩ : Fin cfg0.N).isLt from rfl, hA]
    dsimp only
    refine (congrFun (soutA (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) _ _ (cblk m c ⟨0, hn⟩) (pblk m c ⟨0, hn⟩) (iblk2 m c ⟨0, hn⟩)) (ix2 ch b)).trans ?_
    rw [step_apply, pay3_apply, zero_add]
    have e1 : lo (⟨0, hn⟩ : Fin cfg0.N) = 0 / 256 * 2097152 := by unfold lo; dsimp only
    have e2 : (0 % 256 + 1) * 8192 = 8192 := by omega
    rw [e1, e2]
  | succ n ih =>
    intro hn ch b
    have hN : n + 1 < 512 := lt_of_lt_of_eq hn N_0
    by_cases h0 : (n + 1) % 256 = 0
    · have h1 : ¬(n + 1) % 256 = 255 := by omega
      have hA := outsAt0_A m c ⟨n + 1, hn⟩ h0 h1
      rw [show outsAt0 m c (n + 1) hn = outsAt0 m c (⟨n + 1, hn⟩ : Fin cfg0.N).val (⟨n + 1, hn⟩ : Fin cfg0.N).isLt from rfl, hA]
      dsimp only
      refine (congrFun (soutA (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (cblk m c ⟨n + 1, hn⟩) (pblk m c ⟨n + 1, hn⟩) (iblk2 m c ⟨n + 1, hn⟩)) (ix2 ch b)).trans ?_
      rw [step_apply, pay3_apply, zero_add]
      have e1 : lo (⟨n + 1, hn⟩ : Fin cfg0.N) = (n + 1) / 256 * 2097152 := by unfold lo; dsimp only; omega
      have e2 : ((n + 1) % 256 + 1) * 8192 = 8192 := by omega
      rw [e1, e2]
    · have ihn := ih (Nat.lt_of_succ_lt hn) ch b
      have e0 : (n + 1) / 256 = n / 256 := by omega
      have e1 : lo (⟨n + 1, hn⟩ : Fin cfg0.N) = n / 256 * 2097152 + (n % 256 + 1) * 8192 := by unfold lo; dsimp only; omega
      have e2 : ((n + 1) % 256 + 1) * 8192 = (n % 256 + 1) * 8192 + 8192 := by omega
      by_cases h1 : (n + 1) % 256 = 255
      · have hC := outsAt0_C m c ⟨n + 1, hn⟩ h0 h1
        rw [show outsAt0 m c (n + 1) hn = outsAt0 m c (⟨n + 1, hn⟩ : Fin cfg0.N).val (⟨n + 1, hn⟩ : Fin cfg0.N).isLt from rfl, hC]
        dsimp only
        refine (congrFun (soutC (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (cblk m c ⟨n + 1, hn⟩) (pblk m c ⟨n + 1, hn⟩) (iblk2 m c ⟨n + 1, hn⟩) (outsAt0 m c n (Nat.lt_of_succ_lt hn)).2) (ix2 ch b)).trans ?_
        rw [step_apply, ihn, e0, e1, e2, part_add]
      · have hB := outsAt0_B m c ⟨n + 1, hn⟩ h0 h1
        rw [show outsAt0 m c (n + 1) hn = outsAt0 m c (⟨n + 1, hn⟩ : Fin cfg0.N).val (⟨n + 1, hn⟩ : Fin cfg0.N).isLt from rfl, hB]
        dsimp only
        refine (congrFun (soutB (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (cblk m c ⟨n + 1, hn⟩) (pblk m c ⟨n + 1, hn⟩) (iblk2 m c ⟨n + 1, hn⟩) (outsAt0 m c n (Nat.lt_of_succ_lt hn)).2) (ix2 ch b)).trans ?_
        rw [step_apply, ihn, e0, e1, e2, part_add]

/-- The block the last point of core `h`'s sweep stores for the output: at (0, channel, bin) the histogram of the
    core's whole half. -/
theorem out_eq (c : Dev nD) (t : Fin cfg0.N) (h1 : t.val % 256 = 255) (ch : Fin 16) (b : Fin 512) :
    (outsAt0 m c t.val t.isLt).1 (ix3 0 ch b)
      = part (cmp m c) (post m c) ((t.val / 256) * 2097152) 2097152 b ch := by
  have h0 : ¬t.val % 256 = 0 := by omega
  have hacc := acc_eq m c t.val t.isLt ch b
  have hC := outsAt0_C m c t h0 h1
  rw [hC] at hacc ⊢
  dsimp only at hacc ⊢
  have e2 : (t.val % 256 + 1) * 8192 = 2097152 := by omega
  rw [e2] at hacc
  rw [← hacc]
  refine (congrFun (outC (F := Ideal) c (grid0.coords t) (ms0_0 t) (hs0_0 t) (ms0_1 t) (hs0_1 t) (ms0_2 t) (hs0_2 t) (ms0_3 t) (hs0_3 t) scM0_0 (Memref.isWhole_whole _) _ _ (cblk m c t) (pblk m c t) (iblk2 m c t) (outsAt0 m c (t.val - 1) (Nat.lt_of_le_of_lt (Nat.sub_le _ _) t.isLt)).2) (ix3 0 ch b)).trans ?_
  rw [pay2_apply]
  exact (congrFun (soutC (F := Ideal) c (grid0.coords t) (ms0_0 t) (hs0_0 t) (ms0_1 t) (hs0_1 t) (ms0_2 t) (hs0_2 t) (ms0_3 t) (hs0_3 t) scM0_0 (Memref.isWhole_whole _) _ _ (cblk m c t) (pblk m c t) (iblk2 m c t) (outsAt0 m c (t.val - 1) (Nat.lt_of_le_of_lt (Nat.sub_le _ _) t.isLt)).2) (ix2 ch b)).symm

end Cert.KernelIdeal.Inv

end
-- ==== Proof.Final.lean ====
/-
  The region's result array. Core `h`'s block of the [2,16,512] result is written back once, after the last point
  of the core's sweep, and holds the histogram of the core's half of the rows; the two blocks are the whole array.
-/
import proofs.«409385_j34368328303367_3_alg».proof.Proof.Invariant
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Inv Cert.Hist

variable (m : (ℓ : Loc nD τ sig) → Buf (Elt Ideal) ℓ)

/-- The result array as a function of its index (half, channel, bin): the histogram of that half's 2097152 rows. -/
def Gf (c : Dev nD) : S2x16x512.Idx → EReal :=
  fun i => part (cmp m c) (post m c) ((i 0).val * 2097152) 2097152 (i 2) (i 1)

/-- The same as contents of the result buffer. -/
abbrev G (c : Dev nD) : Buf (Elt Ideal) ((c : Thread nD τ).loc main_v6) := Gf m c

/-- The result array at an entry whose coordinates are known. -/
theorem Gf_at (c : Dev nD) (i : S2x16x512.Idx) (h : ℕ) (q : Fin 16) (r : Fin 512) (h0 : (i 0).val = h)
    (h1 : (i 1).val = q.val) (h2 : (i 2).val = r.val) :
    Gf m c i = part (cmp m c) (post m c) (h * 2097152) 2097152 r q := by
  unfold Gf
  rw [h0, show i 1 = q from Fin.ext h1, show i 2 = r from Fin.ext h2]

/-- The result window's block index at a point: (the point's core, 0, 0). -/
theorem idx3 : ∀ t : Fin cfg0.N, win0_3.index t (0 : Fin 3) = t.val / 256 ∧ win0_3.index t (1 : Fin 3) = 0
    ∧ win0_3.index t (2 : Fin 3) = 0 :=
  (by decide +kernel : ∀ t : Fin grid0.N, _)

/-- The stored block at a general entry. -/
theorem out_at (c : Dev nD) (t : Fin cfg0.N) (h1 : t.val % 256 = 255) (j : S1x16x512.Idx) :
    (outsAt0 m c t.val t.isLt).1 j = part (cmp m c) (post m c) ((t.val / 256) * 2097152) 2097152 (j 2) (j 1) := by
  have h0 : (j 0).val < 1 := (j 0).isLt
  have e : j = ix3 (0 : Fin 1) (j 1) (j 2) := by
    funext a
    match a with
    | ⟨0, _⟩ => exact Fin.ext (by show (j 0).val = 0; omega)
    | ⟨1, _⟩ => rfl
    | ⟨2, _⟩ => rfl
  rw [e]
  exact out_eq m c t h1 (j 1) (j 2)

/-- A block of the result array, read through the window, at an entry: the array at the entry's place in it. -/
theorem read_blk (c : Dev nD) (t : Fin cfg0.N) (GG : S2x16x512.Idx → EReal) (j : ((cfg0.win 3).xblock (grid0.coords t)).Idx) :
    ((cfg0.win 3).blk t).view.read (Elt Ideal) (GG : Buf (Elt Ideal) ((c : Thread nD τ).loc main_v6)) j
      = GG (((cfg0.win 3).blk t).view.emb j) := rfl

/-- WHAT A WRITING POINT WRITES BACK is its core's block of `G`. -/
theorem flushed_eq (c : Dev nD) (t : Fin cfg0.N) (hf : (cfg0.win 3).flush t = true) :
    (dats m 0 c).flushed 3 t = ((cfg0.win 3).blk t).view.read (Elt Ideal) (G m c) := by
  have h1 : t.val % 256 = 255 := (flush0_3 t).mp hf
  show (cfg0.win 3).cut (grid0.coords t) ((dats m 0 c).after 3 t) = _
  rw [after0_3]
  obtain ⟨e0, e1, e2⟩ := idx3 t
  funext j
  refine Eq.trans ?_ (read_blk c t (Gf m c) j).symm
  refine (out_at m c t h1 ((cfg0.win 3).xinj (grid0.coords t) j)).trans (Gf_at m c _ (t.val / 256) _ _ ?_ ?_ ?_).symm
  · show win0_3.index t (0 : Fin 3) * 1 + 1 * (j 0).val = t.val / 256
    have hj0 : (j 0).val < 1 := (j 0).isLt
    omega
  · show win0_3.index t (1 : Fin 3) * 16 + 1 * (j 1).val = (j 1).val; omega
  · show win0_3.index t (2 : Fin 3) * 512 + 1 * (j 2).val = (j 2).val; omega

/-- An index of the array is in point `t`'s block iff each coordinate is in the block's range on its axis. -/
theorem mem_blk (t : Fin cfg0.N) (i : S2x16x512.Idx) :
    i ∈ ((cfg0.win 3).blk t).view.set ↔ ∀ a : Fin 3, win0_3.index t a * S1x16x512.size a ≤ (i a).val ∧ (i a).val < win0_3.index t a * S1x16x512.size a + S1x16x512.size a := by
  show i ∈ ((View.whole main_v6).slice (win0_3.rect t)).set ↔ _
  rw [View.set_slice_whole, Rect.mem_set_unit]
  exact Iff.rfl

/-- Every entry of the array is in the block of the last point of its core's sweep. -/
theorem cover (i : S2x16x512.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 512 := (i 2).isLt
  have hlt : (i 0).val * 256 + 255 < cfg0.N := by show _ < grid0.N; rw [N_0]; omega
  refine ⟨⟨(i 0).val * 256 + 255, hlt⟩, (flush0_3 _).mpr (by dsimp only; omega), ?_⟩
  obtain ⟨e0, e1, e2⟩ := idx3 ⟨(i 0).val * 256 + 255, hlt⟩
  rw [mem_blk]
  intro a
  match a with
  | ⟨0, _⟩ => show win0_3.index _ (0 : Fin 3) * 1 ≤ (i 0).val ∧ (i 0).val < win0_3.index _ (0 : Fin 3) * 1 + 1; dsimp only at e0; omega
  | ⟨1, _⟩ => show win0_3.index _ (1 : Fin 3) * 16 ≤ (i 1).val ∧ (i 1).val < win0_3.index _ (1 : Fin 3) * 16 + 16; omega
  | ⟨2, _⟩ => show win0_3.index _ (2 : Fin 3) * 512 ≤ (i 2).val ∧ (i 2).val < win0_3.index _ (2 : Fin 3) * 512 + 512; omega

/-- THE RESULT ARRAY after the run. -/
theorem final (c : Dev nD) : (dats m 0 c).arrAt 3 cfg0.N = G m c :=
  (dats m 0 c).arrAt_eq_of_cover 3 (G m c) (flushed_eq m c) (cover)

end Cert.KernelIdeal.Final

end
-- ==== Proof.TailNumer.lean ====
/-
  The host lines after the histogram kernel, up to the emission numerator, read at an index over the extended reals.
  The kernel leaves one partial histogram per core, [2, 16, 512] = (core, channel, bin). The host adds the two cores'
  partial histograms, starting from zero, into [16, 512] = (channel, bin); reads the bin as (cluster, symbol) with
  bin = 32 · cluster + symbol, [16, 16, 32]; and moves the channel last, [16, 32, 16] = (cluster, symbol, channel).
  So the numerator at (cluster k, symbol y, channel ch) is the sum over the two cores of their partial histogram at
  channel ch, bin 32 k + y.
-/
import proofs.«409385_j34368328303367_3_alg».proof.Proof.Hist
import proofs.«409385_j34368328303367_3_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tail

open Cert.KernelIdeal Cert.KernelIdeal.Gen
open Idealize.ShloMosaic Idealize.ShloMosaic.ValueIdx

/-- The numerator at `(k, y, ch)` is the two cores' partial histograms at channel `ch`, bin `32 k + y`, added:
    the move of the channel axis reads the (channel, cluster, symbol) array at `(ch, k, y)`; that array and the
    (channel, bin) array share the row-major position `512 ch + 32 k + y`; and the sum over the core axis, started at
    the zero word, is the two cores' entries added. -/
theorem tail_numer (G : FVec Ideal S2x16x512 .f32) (i : S16x32x16.Idx) :
    (transpose S16x32x16 [1, 2, 0] (shapeCast S16x16x32 (Host.reduceAdd G (constant S_ .f32 0x00000000#32) reducesTo_S2x16x512_S16x512_d0 h_S_) shapeCasts_S16x512_S16x16x32) transposes_S16x16x32_S16x32x16_1_2_0) i
      = G (ix3 0 (i 2) (Cert.Hist.bin (i 0) (i 1))) + G (ix3 1 (i 2) (Cert.Hist.bin (i 0) (i 1))) := by
  -- channel last: result axes (cluster, symbol, channel) are source axes 1, 2, 0
  refine (transpose_apply [1, 2, 0] _ transposes_S16x16x32_S16x32x16_1_2_0 i (ix3 (i 2) (i 0) (i 1)) ?_).trans ?_
  · intro b
    match b with
    | ⟨0, _⟩ => rfl
    | ⟨1, _⟩ => rfl
    | ⟨2, _⟩ => rfl
  -- (channel, cluster, symbol) and (channel, bin) at the same row-major position
  refine (shapeCast_apply _ shapeCasts_S16x512_S16x16x32 (ix3 (i 2) (i 0) (i 1)) (ix2 (i 2) (Cert.Hist.bin (i 0) (i 1))) ?_).trans ?_
  · rw [Shape.rowMajor_val_two, Shape.rowMajor_val_three]
    show (i 2).val * 512 + ((i 0).val * 32 + (i 1).val) = ((i 2).val * 16 + (i 0).val) * 32 + (i 1).val
    omega
  -- the sum over the core axis from the zero word
  simp only [Host.reduceAdd, Ideal.hostReduceAdd_def]
  rw [Ideal.hostReduceAdd_single reducesTo_S2x16x512_S16x512_d0 (by decide)]
  rw [show (constant (F := Ideal) S_ .f32 0x00000000#32) (Shape.Idx.first h_S_) = (0 : EReal) from Ideal.ofBits_zero_f32, zero_add]
  show ∑ k : Fin 2, _ = _
  rw [Fin.sum_univ_two]
  congr 1 <;>
    exact congrArg G (funext fun a => Fin.ext (by match a with | ⟨0, _⟩ => rfl | ⟨1, _⟩ => rfl | ⟨2, _⟩ => rfl))

end Cert.KernelIdeal.Tail

end
-- ==== Proof.KTail.lean ====
/-
  The host lines after the histogram kernel as one function of the kernel's result array, and the whole program's run
  read at its result. The kernel leaves one partial histogram per core, [2, 16, 512] = (core, channel, bin). The lines
  after it add the two cores' partial histograms from zero, re-lay the sum to (cluster, symbol, channel) = [16, 32, 16],
  add the smoothing constant, and divide each (cluster, channel) row by its sum over the 32 symbols. The program's
  result array ends holding that function of the array the kernel wrote, and the three argument arrays end as they began.
-/
import proofs.«409385_j34368328303367_3_alg».proof.Proof.Gen.KernelIdeal.Frame
import Idealize.ShloMosaic.Lib.StableHlo.Run
import Idealize.ShloMosaic.Lib.Pipeline.FrameSuffix

noncomputable section

namespace Cert.KernelIdeal.KTail

open Cert.KernelIdeal Cert.KernelIdeal.Gen
open Idealize.ShloMosaic Idealize.ShloMosaic.TcCoe
open Idealize.SL Idealize.SL.Sem
open Idealize.ShloMosaic.StableHlo
open Idealize.ShloMosaic.Pipeline (Dat)

variable {F : FTy → Type} [FloatOps F] (m : (ℓ : Loc nD τ sig) → Buf (Elt F) ℓ)

/-- the kernel's host operations after the region, as ONE function of the region's result array G : f32[2,16,512]: the
    two cores' partial histograms summed, re-laid to [16,32,16], the smoothing constant added, and each
    (cluster, channel) row divided by its sum over the 32 symbols -/
def tailOf (G : FVec F S2x16x512 .f32) : FVec F S16x32x16 .f32 :=
  let X : FVec F S16x32x16 .f32 := transpose S16x32x16 [1, 2, 0] (shapeCast S16x16x32 (Host.reduceAdd G (constant S_ .f32 0x00000000#32) reducesTo_S2x16x512_S16x512_d0 h_S_) shapeCasts_S16x512_S16x16x32) transposes_S16x16x32_S16x32x16_1_2_0
  let Nm : FVec F S16x32x16 .f32 := addf X (broadcastInDim S16x32x16 ![] bcast_S_S16x32x16 (constant S_ .f32 0x322BCC77#32))
  Host.divf Nm (broadcastInDim S16x32x16 ![0, 1, 2] bcast_S16x1x16_S16x32x16_0_1_2 (broadcastInDim S16x1x16 ![0, 2] bcast_S16x16_S16x1x16_0_2 (Host.reduceAdd Nm (constant S_ .f32 0x00000000#32) reducesTo_S16x32x16_S16x16_d1 h_S_)))

/-- What the lines after the region leave in the program's result array: `tailOf` of the array the kernel's output
    window was written back to. Each line's result is its operation applied to its operands' contents; the first
    operand of the first sum is the kernel's result array, which the region leaves at the contents assembled from the
    write-backs. -/
theorem tail_result (c : Dev nD) :
    Pipeline.afterTail₀ cfgs (dats m) 0 (V0 m) [hostOps1] c main_v15 = tailOf ((dats m 0 c).arrAt 3 cfg0.N) := by
  unfold Pipeline.afterTail₀
  simp only [List.flatten_cons, List.flatten_nil, List.append_nil]
  show StableHlo.after hostOps1 _ (Proc.devRef .tc main_v15) = _
  simp only [hostOps1]
  after_results
  rw [show Pipeline.withArrays (cfgs 0).spec c (V0 m c) (fun w => (dats m 0 c).arrAt w (cfgs 0).N) (Proc.devRef .tc main_v6)
      = (dats m 0 c).arrAt 3 cfg0.N from Pipeline.withArrays_arr spec0 launch0.win.arr_inj c _ _ 3]
  rfl

/-- The run, read: from any memory with zero counters every weakly fair execution of the program terminates with the
    result array at `tailOf` of the kernel's result array and the three argument arrays unchanged. -/
theorem run (ρ : Dev nD → PrngReg) : θ_run defs (onTc (τ := τ) (main (F := F))) ⟨m, fun _ => 0, ρ⟩ fun r => ∀ c : Dev nD,
      r.2.mem ((c.tc : Thread nD τ).loc main_v15) = tailOf ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KTail

end
-- ==== Proof.RefSide.lean ====
/-
  The reference's segment sum, read at an index. The reference adds posterior row `n` into histogram row
  `32 · x n + y n` (a 32-bit word, read signed, a word outside `[0, 512)` dropping the row), starting from zero, and
  reshapes the `512 × 16` result to `16 × 32 × 16`. So its element `(k, y, ch)` is the sum of the posterior at channel
  `ch` over the rows whose composite label word is the word of bin `32 k + y`: the histogram `Cert.Hist.numer`.

  First the general facts: a signed word equals a small natural number exactly when it is that number's word; an
  accumulating scatter onto a zero operand with rank-two updates is a filtered sum over the update rows. Then the
  scatter's dimension numbers are read for this program (where the start index sits, which axis is the window),
  giving where each update element lands; last the index vector, the operand and the reshape are read and the pieces
  are put together.
-/
import proofs.«409385_j34368328303367_3_alg».proof.Proof.Hist
import proofs.«409385_j34368328303367_3_alg».proof.Proof.Gen.ReferenceIdeal.Read
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Gen

/-- An accumulating float scatter onto an operand that is zero at `i`, whose updates have rank two, read at `i`:
    when update `(a, b)` lands on `i` exactly for the rows `a` with `Q a` and the one column `b = c`, the element
    is the sum over the rows with `Q a` of the update at `(a, c)`. -/
theorem scatterAdd_zero_ix2 {s si : Shape} {n0 n1 w : ℕ} {φ : FTy} (d : ScatterDims s si ⟨2, ![n0, n1]⟩)
    (x : FVec Ideal s φ) (idx : IVec si w) (upd : FVec Ideal ⟨2, ![n0, n1]⟩ φ) (i : s.Idx) (hx : x i = (0 : EReal))
    (Q : Fin n0 → Prop) [DecidablePred Q] (c : Fin n1)
    (h : ∀ a b, d.resultIdx? (ix2 a b) idx = some i ↔ Q a ∧ b = c) :
    Host.scatterAdd (F := Ideal) d x idx upd i = ∑ a ∈ Finset.univ.filter Q, (upd (ix2 a c) : EReal) := by
  show (x i : EReal) + _ = _
  rw [hx, zero_add, Finset.sum_filter, Finset.sum_filter, sum_idx2]
  refine Finset.sum_congr rfl fun a _ => ?_
  simp only [h]
  by_cases hq : Q a
  · simp only [hq, true_and, if_true]
    rw [Finset.sum_ite_eq' Finset.univ c]
    simp only [Finset.mem_univ, if_true]
  · simp only [hq, false_and, if_false, Finset.sum_const_zero]

/-- A 32-bit word read as a signed integer equals a natural number below `2^31` exactly when it is that number's word. -/
theorem toInt_eq_natCast_iff (w : BitVec 32) (b : ℕ) (hb : b < 2147483648) :
    w.toInt = (b : ℤ) ↔ w = BitVec.ofNat 32 b := by
  have hw := w.isLt
  rw [BitVec.toInt_eq_toNat_cond, ← BitVec.toNat_inj, BitVec.toNat_ofNat]
  split <;> omega

/-- The reference's scatter dimension numbers: rows of the updates go to the operand row their index word names,
    the updates' second axis is the window and runs along the operand's second axis. -/
abbrev D : ScatterDims S512x16 S4194304x1 S4194304x16 := scatter_S512x16_S4194304x1_S4194304x16_1_0_0_1

/-- Update element `(n, c')` reads its one start component at the scatter indices' element `(n, 0)`. -/
theorem siIdx_eq (n : Fin 4194304) (c' : Fin 16) (k : Fin D.scatterDimsToOperandDims.length) :
    D.siIdx (ix2 n c') k = ix2 n (0 : Fin 1) := by
  funext b
  match b with
  | ⟨0, _⟩ => exact Fin.ext rfl
  | ⟨1, _⟩ => exact Fin.ext (Nat.lt_one_iff.1 k.isLt)

/-- On the operand's row axis the window of update `(n, c')` starts at the signed value of the index word of row `n`. -/
theorem start_zero (n : Fin 4194304) (c' : Fin 16) (idx : IVec S4194304x1 32) :
    D.start (ix2 n c') idx 0 = (idx (ix2 n (0 : Fin 1))).toInt := by
  unfold ScatterDims.start
  rw [dif_pos (by decide)]
  rw [siIdx_eq]

/-- On the operand's channel axis, which the index vector does not name, the window starts at `0`. -/
theorem start_one (n : Fin 4194304) (c' : Fin 16) (idx : IVec S4194304x1 32) :
    D.start (ix2 n c') idx 1 = 0 := by
  unfold ScatterDims.start
  rw [dif_neg (by decide)]

/-- The row axis is an inserted axis: the window coordinate there is `0`. -/
theorem window_zero (n : Fin 4194304) (c' : Fin 16) : D.window (ix2 n c') 0 = 0 := by
  unfold ScatterDims.window
  rw [dif_neg (by decide)]

/-- On the channel axis the window coordinate of update `(n, c')` is `c'`. -/
theorem window_one (n : Fin 4194304) (c' : Fin 16) : D.window (ix2 n c') 1 = c'.val := by
  unfold ScatterDims.window
  rw [dif_pos (by decide)]
  rfl

/-- Where an update element lands: update `(n, c')` lands on operand element `(bn, c)` exactly when the index word of
    row `n`, read signed, is `bn` and `c' = c`; a row whose word is negative or at least `512` lands nowhere. -/
theorem resultIdx?_eq_some_iff (n : Fin 4194304) (c' : Fin 16) (idx : IVec S4194304x1 32) (bn : Fin 512) (c : Fin 16) :
    D.resultIdx? (ix2 n c') idx = some (ix2 bn c) ↔ (idx (ix2 n (0 : Fin 1))).toInt = (bn.val : ℤ) ∧ c' = c := by
  have hs0 := start_zero n c' idx
  have hs1 := start_one n c' idx
  have hw0 := window_zero n c'
  have hw1 := window_one n c'
  have hbn := bn.isLt
  have hc' := c'.isLt
  unfold ScatterDims.resultIdx?
  split
  · rename_i h
    rw [Option.some.injEq]
    constructor
    · intro e
      have e0 : (D.start (ix2 n c') idx 0 + (D.window (ix2 n c') 0 : ℤ)).toNat = bn.val := congrArg Fin.val (congrFun e 0)
      have e1 : (D.start (ix2 n c') idx 1 + (D.window (ix2 n c') 1 : ℤ)).toNat = c.val := congrArg Fin.val (congrFun e 1)
      have h0 : 0 ≤ D.start (ix2 n c') idx 0 + (D.window (ix2 n c') 0 : ℤ) := (h 0).1
      rw [hs0, hw0] at e0 h0
      rw [hs1, hw1] at e1
      exact ⟨by omega, Fin.ext (by omega)⟩
    · rintro ⟨ht, hc⟩
      funext a
      match a with
      | ⟨0, _⟩ =>
        apply Fin.ext
        show (D.start (ix2 n c') idx 0 + (D.window (ix2 n c') 0 : ℤ)).toNat = bn.val
        rw [hs0, hw0, ht]; omega
      | ⟨1, _⟩ =>
        apply Fin.ext
        show (D.start (ix2 n c') idx 1 + (D.window (ix2 n c') 1 : ℤ)).toNat = c.val
        rw [hs1, hw1, ← hc]; omega
  · rename_i h
    constructor
    · intro e; cases e
    · rintro ⟨ht, hc⟩
      refine absurd (fun a => ?_) h
      match a with
      | ⟨0, _⟩ =>
        show 0 ≤ D.start (ix2 n c') idx 0 + (D.window (ix2 n c') 0 : ℤ) ∧ D.start (ix2 n c') idx 0 + (D.window (ix2 n c') 0 : ℤ) < ((512 : ℕ) : ℤ)
        rw [hs0, hw0, ht]; omega
      | ⟨1, _⟩ =>
        show 0 ≤ D.start (ix2 n c') idx 1 + (D.window (ix2 n c') 1 : ℤ) ∧ D.start (ix2 n c') idx 1 + (D.window (ix2 n c') 1 : ℤ) < ((16 : ℕ) : ℤ)
        rw [hs1, hw1]; omega

/-- The scatter's index vector at `(n, 0)` is row `n`'s composite label word. -/
theorem indices_apply (x0 x1 : (⟨S4194304, .i32⟩ : BufTy).Contents (Elt Ideal)) (n : Fin 4194304) :
    Read.val_main_v4 (F := Ideal) x0 x1 (ix2 n (0 : Fin 1)) = Cert.Hist.cmpOf x0 x1 n := by
  rw [Read.val_main_v4_apply, Read.val_main_v2_apply, Read.val_main_v1_apply, Read.val_main_v0_apply, Read.val_main_c_apply]
  have e : Read.idx_main_v4 (ix2 n (0 : Fin 1)) = ix1 n := by
    funext a; match a with | ⟨0, _⟩ => rfl
  rw [e]
  rfl

/-- The scatter's operand is zero everywhere. -/
theorem operand_apply (b : S512x16.Idx) : Read.val_main_v3 (F := Ideal) b = (0 : EReal) := by
  rw [Read.val_main_v3_apply, Read.val_main_cst_apply]
  exact Ideal.ofBits_zero_f32

/-- Element `(k, y, ch)` of the reshaped histogram is element `(32 k + y, ch)` of the histogram. -/
theorem idx_main_v6_eq (k : Fin 16) (y : Fin 32) (ch : Fin 16) :
    Read.idx_main_v6 (ix3 k y ch) = ix2 (Cert.Hist.bin k y) ch := by
  have h0 := k.isLt
  have h1 := y.isLt
  have h2 := ch.isLt
  funext a
  match a with
  | ⟨0, _⟩ => apply Fin.ext; show ((k.val * 32 + y.val) * 16 + ch.val) / 16 = k.val * 32 + y.val; omega
  | ⟨1, _⟩ => apply Fin.ext; show ((k.val * 32 + y.val) * 16 + ch.val) % 16 = ch.val; omega

/-- Update `(n, c')` of the reference's scatter lands on histogram element `(bn, c)` exactly when row `n`'s composite
    label word is `bn`'s word and `c' = c` (the two range conditions on `n` hold of every row). -/
theorem lands_iff (x0 x1 : (⟨S4194304, .i32⟩ : BufTy).Contents (Elt Ideal)) (bn : Fin 512) (c : Fin 16)
    (n : Fin 4194304) (c' : Fin 16) :
    D.resultIdx? (ix2 n c') (Read.val_main_v4 (F := Ideal) x0 x1) = some (ix2 bn c)
      ↔ (0 ≤ n.val ∧ n.val < 0 + 4194304 ∧ Cert.Hist.cmpOf x0 x1 n = BitVec.ofNat 32 bn.val) ∧ c' = c := by
  have hbn := bn.isLt
  have hn := n.isLt
  rw [resultIdx?_eq_some_iff, indices_apply, toInt_eq_natCast_iff _ _ (by omega)]
  constructor
  · rintro ⟨h1, h2⟩; exact ⟨⟨Nat.zero_le _, by omega, h1⟩, h2⟩
  · rintro ⟨⟨_, _, h1⟩, h2⟩; exact ⟨h1, h2⟩

/-- The reference's segment sum at bin `bn`, channel `c`: the posterior at channel `c` summed over the rows whose
    composite label word is `bn`'s word. Rows whose word names no bin contribute to no element. -/
theorem scatter_apply (x0 x1 : (⟨S4194304, .i32⟩ : BufTy).Contents (Elt Ideal))
    (x2 : (⟨S4194304x16, .f32⟩ : BufTy).Contents (Elt Ideal)) (bn : Fin 512) (c : Fin 16) :
    Read.val_main_v5 (F := Ideal) x0 x1 x2 (ix2 bn c)
      = ∑ n ∈ Finset.univ.filter (fun n : Fin 4194304 =>
          0 ≤ n.val ∧ n.val < 0 + 4194304 ∧ Cert.Hist.cmpOf x0 x1 n = BitVec.ofNat 32 bn.val), Cert.Hist.postOf x2 n c :=
  scatterAdd_zero_ix2 D (Read.val_main_v3 (F := Ideal)) (Read.val_main_v4 (F := Ideal) x0 x1) x2 (ix2 bn c)
    (operand_apply _)
    (fun n : Fin 4194304 => 0 ≤ n.val ∧ n.val < 0 + 4194304 ∧ Cert.Hist.cmpOf x0 x1 n = BitVec.ofNat 32 bn.val) c
    (lands_iff x0 x1 bn c)

/-- A range's part of the histogram, written out as the filtered sum. -/
theorem part_eq (cmp : Fin 4194304 → BitVec 32) (post : Fin 4194304 → Fin 16 → EReal) (lo len : ℕ) (b : Fin 512) (ch : Fin 16) :
    Cert.Hist.part cmp post lo len b ch
      = ∑ n ∈ Finset.univ.filter (fun n : Fin 4194304 => lo ≤ n.val ∧ n.val < lo + len ∧ cmp n = BitVec.ofNat 32 b.val), post n ch := rfl

/-- The numerator at `(k, y, ch)` is the whole range's part at bin `32 k + y`, channel `ch`. -/
theorem numer_apply (x0 x1 : (⟨1, ![4194304]⟩ : Shape).Idx → BitVec 32) (x2 : (⟨2, ![4194304, 16]⟩ : Shape).Idx → EReal)
    (k : Fin 16) (y : Fin 32) (ch : Fin 16) :
    Cert.Hist.numer x0 x1 x2 (ix3 k y ch)
      = Cert.Hist.part (Cert.Hist.cmpOf x0 x1) (Cert.Hist.postOf x2) 0 4194304 (Cert.Hist.bin k y) ch := rfl

/-- The reference's reshaped segment sum is the histogram: at `(k, y, ch)` the posterior at channel `ch` summed over
    the rows whose composite label word is bin `32 k + y`. -/
theorem ref_numer (x0 x1 : (⟨Cert.ReferenceIdeal.S4194304, .i32⟩ : BufTy).Contents (Elt Ideal)) (x2 : (⟨Cert.ReferenceIdeal.S4194304x16, .f32⟩ : BufTy).Contents (Elt Ideal)) :
    Cert.ReferenceIdeal.Read.val_main_v6 (F := Ideal) x0 x1 x2 = Cert.Hist.numer x0 x1 x2 := by
  funext i
  obtain ⟨k, y, ch, rfl⟩ : ∃ (k : Fin 16) (y : Fin 32) (ch : Fin 16), i = ix3 k y ch := ⟨i 0, i 1, i 2, eq_ix3 i⟩
  exact (((Read.val_main_v6_apply x0 x1 x2 (ix3 k y ch)).trans
    (congrArg (Read.val_main_v5 (F := Ideal) x0 x1 x2) (idx_main_v6_eq k y ch))).trans
    (scatter_apply x0 x1 x2 (Cert.Hist.bin k y) ch)).trans
    ((numer_apply x0 x1 x2 k y ch).trans (part_eq _ _ 0 4194304 (Cert.Hist.bin k y) ch)).symm

end Cert.RefSide

end
-- ==== Proof.Bridge.lean ====
/-
  The two programs' results are one function of the arguments. The kernel's host tail sums the two cores' partial
  histograms — halves of the rows — and re-lays the sum to (cluster, symbol, channel); the reference's segment sum,
  re-laid the same way, is the histogram of all the rows: the two halves' parts add up to the whole's. What follows
  — the smoothing constant, the sum over the symbols, the quotient — is the same operations of that numerator in
  both programs.
-/
import proofs.«409385_j34368328303367_3_alg».proof.Proof.Final
import proofs.«409385_j34368328303367_3_alg».proof.Proof.TailNumer
import proofs.«409385_j34368328303367_3_alg».proof.Proof.KTail
import proofs.«409385_j34368328303367_3_alg».proof.Proof.RefSide

noncomputable section

open Idealize.ShloMosaic Idealize.ShloMosaic.TcCoe Idealize.SL.Sem Idealize.ShloMosaic.ValueIdx

namespace Cert.Bridge

open Cert.KernelIdeal Cert.KernelIdeal.Gen Cert.KernelIdeal.Blocks Cert.KernelIdeal.Inv Cert.KernelIdeal.Final Cert.Hist

variable (m : (ℓ : Loc nD τ sig) → Buf (Elt Ideal) ℓ)

/-- The kernel's numerator — the two cores' result blocks summed and re-laid — is the reference's re-laid segment sum. -/
theorem numer_eq (c : Dev nD) :
    (transpose S16x32x16 [1, 2, 0] (shapeCast S16x16x32 (Host.reduceAdd (G m c) (constant S_ .f32 0x00000000#32) reducesTo_S2x16x512_S16x512_d0 h_S_) shapeCasts_S16x512_S16x16x32) transposes_S16x16x32_S16x32x16_1_2_0 : FVec Ideal S16x32x16 .f32)
      = Cert.ReferenceIdeal.Read.val_main_v6 (F := Ideal) (ax m c) (ay m c) (ap m c) := by
  rw [Cert.RefSide.ref_numer]
  funext i
  obtain ⟨k, y, ch, rfl⟩ : ∃ (k : Fin 16) (y : Fin 32) (ch : Fin 16), i = ix3 k y ch := ⟨i 0, i 1, i 2, eq_ix3 i⟩
  refine (Cert.KernelIdeal.Tail.tail_numer (G m c) (ix3 k y ch)).trans ?_
  refine (congrArg₂ (· + ·) (Gf_at m c (ix3 (0 : Fin 2) ch (bin k y)) 0 ch (bin k y) rfl rfl rfl)
    (Gf_at m c (ix3 (1 : Fin 2) ch (bin k y)) 1 ch (bin k y) rfl rfl rfl)).trans ?_
  have h := part_add (cmp m c) (post m c) 0 2097152 2097152 (bin k y) ch
  have e1 : (0 * 2097152 : ℕ) = 0 := by norm_num
  have e2 : (1 * 2097152 : ℕ) = 0 + 2097152 := by norm_num
  have e3 : (2097152 + 2097152 : ℕ) = 4194304 := by norm_num
  rw [e1, e2]
  rw [e3] at h
  exact h.symm

/-- So the kernel's result is the reference's. -/
theorem result_eq (c : Dev nD) :
    Cert.KernelIdeal.KTail.tailOf (F := Ideal) (G m c) = Cert.ReferenceIdeal.Read.val_main_v12 (F := Ideal) (ax m c) (ay m c) (ap m c) := by
  unfold Cert.KernelIdeal.KTail.tailOf Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_cst_0 Cert.ReferenceIdeal.Read.val_main_cst_1
  dsimp only
  rw [numer_eq m c]

end Cert.Bridge

end
-- ==== Proof.lean ====
/-
  An EM M-step histogram: the posterior rows, keyed by the composite label 32 · x + y, summed per key and normalised
  over the 32 symbols of each cluster. The kernel builds the per-key sums as one-hot contractions, tile by tile, in an
  accumulator carried across each core's sweep of its half of the rows, and adds the two cores' results on the host; the
  reference scatters the rows onto their keys. At the ideal instance both are the same sums of extended reals
  (a posterior times a one-hot entry is the posterior or zero, and sums of extended reals re-associate freely), so the
  two normalised results agree entry by entry; nothing about the inputs' finiteness is used.

  frame_Kernel, frame_KernelIdeal: the generated frames of the two kernel programs. frame_ReferenceIdeal: the generated run of the host
  reference, its result dropped. preserves: the ideal pass rewrote nothing. algebraic: the kernel's result array after
  the run (Final.final) under its host tail (KTail.run) against the reference's run, joined by Bridge.result_eq.
-/
import proofs.«409385_j34368328303367_3_alg».proof.Defs
import proofs.«409385_j34368328303367_3_alg».proof.Proof.Gen.Kernel
import proofs.«409385_j34368328303367_3_alg».proof.Proof.Gen.Kernel.Skeleton
import proofs.«409385_j34368328303367_3_alg».proof.Proof.Gen.Kernel.Launch
import proofs.«409385_j34368328303367_3_alg».proof.Proof.Gen.Kernel.Points
import proofs.«409385_j34368328303367_3_alg».proof.Proof.Gen.Kernel.Frame
import proofs.«409385_j34368328303367_3_alg».proof.Proof.Gen.KernelIdeal
import proofs.«409385_j34368328303367_3_alg».proof.Proof.Gen.KernelIdeal.Skeleton
import proofs.«409385_j34368328303367_3_alg».proof.Proof.Gen.KernelIdeal.Launch
import proofs.«409385_j34368328303367_3_alg».proof.Proof.Gen.KernelIdeal.Points
import proofs.«409385_j34368328303367_3_alg».proof.Proof.Gen.KernelIdeal.Frame
import proofs.«409385_j34368328303367_3_alg».proof.Proof.Gen.ReferenceIdeal
import proofs.«409385_j34368328303367_3_alg».proof.Proof.Gen.Pre_finite_inputs
import proofs.«409385_j34368328303367_3_alg».proof.Proof.Gen.ReferenceIdeal.Run
import proofs.«409385_j34368328303367_3_alg».proof.Proof.Gen.ReferenceIdeal.Read
import proofs.«409385_j34368328303367_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the normalised histogram of the argument arrays: the kernel's result array under its host
    tail, the reference's run, one function of arguments that agree. -/
theorem algebraic : Cert.algebraic_KernelIdeal_ReferenceIdeal := by
  intro m ρ m' ρ' _ hagree
  refine ⟨fun c => Cert.KernelIdeal.KTail.tailOf (F := Ideal) (Cert.KernelIdeal.Final.G m c), ?_, ?_⟩
  · exact (θ_run Cert.KernelIdeal.defs _ _).mono
      (fun _ h c => ⟨(h c).1.trans (congrArg (Cert.KernelIdeal.KTail.tailOf (F := Ideal)) (Cert.KernelIdeal.Final.final m c)), (h c).2⟩)
      (Cert.KernelIdeal.KTail.run (F := Ideal) m ρ)
  · refine (θ_run Cert.ReferenceIdeal.defs _ _).mono (fun _ h c => ⟨(h c).1.trans ?_, (h c).2⟩)
      (Cert.ReferenceIdeal.Value.run (F := Ideal) m' ρ')
    refine Eq.trans ?_ (Cert.Bridge.result_eq m c).symm
    rw [(hagree c).1, (hagree c).2.1, (hagree c).2.2]
    exact Cert.ReferenceIdeal.Read.val_main_v12_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
